-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x16 .f32) (main_arg5 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1968 : Shape := ⟨1, ![1968]⟩
abbrev S851968 : Shape := ⟨1, ![851968]⟩
abbrev S851968x1 : Shape := ⟨2, ![851968, 1]⟩
abbrev S5000x64 : Shape := ⟨2, ![5000, 64]⟩
abbrev S851968x64 : Shape := ⟨2, ![851968, 64]⟩
abbrev S8192x64 : Shape := ⟨2, ![8192, 64]⟩
abbrev S8192x1 : Shape := ⟨2, ![8192, 1]⟩
abbrev S1x64 : Shape := ⟨2, ![1, 64]⟩
abbrev S50000x16 : Shape := ⟨2, ![50000, 16]⟩
abbrev S5000x16 : Shape := ⟨2, ![5000, 16]⟩
abbrev S851968x16 : Shape := ⟨2, ![851968, 16]⟩
abbrev S8192x16 : Shape := ⟨2, ![8192, 16]⟩
abbrev S1x16 : Shape := ⟨2, ![1, 16]⟩

abbrev nBuf : Space → Nat
  | .hbm => 81
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S1968, .i32⟩
  | .hbm, ⟨41, _⟩ => ⟨S851968, .i32⟩
  | .hbm, ⟨42, _⟩ => ⟨S_, .i32⟩
  | .hbm, ⟨43, _⟩ => ⟨S1968, .i32⟩
  | .hbm, ⟨44, _⟩ => ⟨S851968, .i32⟩
  | .hbm, ⟨45, _⟩ => ⟨S_, .f32⟩
  | .hbm, ⟨46, _⟩ => ⟨S1968, .f32⟩
  | .hbm, ⟨47, _⟩ => ⟨S851968, .f32⟩
  | .hbm, ⟨48, _⟩ => ⟨S851968x1, .f32⟩
  | .hbm, ⟨49, _⟩ => ⟨S50000x64, .f32⟩
  | .hbm, ⟨50, _⟩ => ⟨S_, .i32⟩
  | .hbm, ⟨51, _⟩ => ⟨S851968, .i32⟩
  | .hbm, ⟨52, _⟩ => ⟨S851968, .i1⟩
  | .hbm, ⟨53, _⟩ => ⟨S_, .i32⟩
  | .hbm, ⟨54, _⟩ => ⟨S851968, .i32⟩
  | .hbm, ⟨55, _⟩ => ⟨S851968, .i32⟩
  | .hbm, ⟨56, _⟩ => ⟨S851968, .i32⟩
  | .hbm, ⟨57, _⟩ => ⟨S851968x1, .i32⟩
  | .hbm, ⟨58, _⟩ => ⟨S851968x64, .f32⟩
  | .hbm, ⟨59, _⟩ => ⟨S851968x64, .f32⟩
  | .hbm, ⟨60, _⟩ => ⟨S_, .f32⟩
  | .hbm, ⟨61, _⟩ => ⟨S50000x64, .f32⟩
  | .hbm, ⟨62, _⟩ => ⟨S851968x1, .i32⟩
  | .hbm, ⟨63, _⟩ => ⟨S50000x64, .f32⟩
  | .hbm, ⟨64, _⟩ => ⟨S50000x64, .f32⟩
  | .hbm, ⟨65, _⟩ => ⟨S50000x16, .f32⟩
  | .hbm, ⟨66, _⟩ => ⟨S_, .i32⟩
  | .hbm, ⟨67, _⟩ => ⟨S851968, .i32⟩
  | .hbm, ⟨68, _⟩ => ⟨S851968, .i1⟩
  | .hbm, ⟨69, _⟩ => ⟨S_, .i32⟩
  | .hbm, ⟨70, _⟩ => ⟨S851968, .i32⟩
  | .hbm, ⟨71, _⟩ => ⟨S851968, .i32⟩
  | .hbm, ⟨72, _⟩ => ⟨S851968, .i32⟩
  | .hbm, ⟨73, _⟩ => ⟨S851968x1, .i32⟩
  | .hbm, ⟨74, _⟩ => ⟨S851968x16, .f32⟩
  | .hbm, ⟨75, _⟩ => ⟨S851968x16, .f32⟩
  | .hbm, ⟨76, _⟩ => ⟨S_, .f32⟩
  | .hbm, ⟨77, _⟩ => ⟨S50000x16, .f32⟩
  | .hbm, ⟨78, _⟩ => ⟨S851968x1, .i32⟩
  | .hbm, ⟨79, _⟩ => ⟨S50000x16, .f32⟩
  | .hbm, ⟨80, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x16, .f32⟩
  | .local _ .vmem, ⟨19, _⟩ => ⟨S5000x16, .f32⟩
  | .local _ .vmem, ⟨20, _⟩ => ⟨S5000x16, .f32⟩
  | .local _ .vmem, ⟨21, _⟩ => ⟨S8192x16, .f32⟩
  | .local _ .vmem, ⟨22, _⟩ => ⟨S8192x16, .f32⟩
  | .local _ .vmem, ⟨23, _⟩ => ⟨S8192x1, .f32⟩
  | .local _ .vmem, ⟨24, _⟩ => ⟨S8192x1, .f32⟩
  | .local _ .vmem, ⟨25, _⟩ => ⟨S8192x16, .f32⟩
  | .local _ .vmem, ⟨26, _⟩ => ⟨S8192x16, .f32⟩
  | .local _ .vmem, ⟨27, _⟩ => ⟨S5000x16, .f32⟩
  | .local _ .vmem, ⟨28, _⟩ => ⟨S5000x16, .f32⟩
  | .local _ .vmem, ⟨29, _⟩ => ⟨S16, .f32⟩
  | .local _ .vmem, ⟨30, _⟩ => ⟨S5000x16, .f32⟩
  | .local _ .vmem, ⟨31, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![104], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![104], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1968 : S_.BroadcastsInDim S1968 (![] : Fin 0 → Fin S1968.rank)
  concatenates_S850000_S1968_S851968_d0 : Shape.Concatenates [S850000, S1968] S851968 0
  shapeCasts_S851968_S851968x1 : S851968.ShapeCasts S851968x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S851968 : S_.BroadcastsInDim S851968 (![] : Fin 0 → Fin S851968.rank)
  bcast_S851968_S851968x1_0 : S851968.BroadcastsInDim S851968x1 (![0] : Fin 1 → Fin S851968x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  broadcasts_S8192x1_S8192x16 : S8192x1.Broadcasts S8192x16
  bcast_S_S50000x16 : S_.BroadcastsInDim S50000x16 (![] : Fin 0 → Fin S50000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S851968x1_S851968x64_1_0_n_n_0_1_164_wf : GatherDims.WF S50000x64 S851968x1 S851968x64 [1] [0] [] [0] [] 1 ![1, 64]
  scatter_S50000x64_S851968x1_S851968x64_1_0_0_1_wf : ScatterDims.WF S50000x64 S851968x1 S851968x64 [1] [0] [0] 1
  dot_S5000x64_S64x16_S5000x16_1_0_0_1_n_n_wf : DotDims.WF S5000x64 S64x16 S5000x16 [1] [0] [0] [1] [] []
  gather_S50000x16_S851968x1_S851968x16_1_0_n_n_0_1_116_wf : GatherDims.WF S50000x16 S851968x1 S851968x16 [1] [0] [] [0] [] 1 ![1, 16]
  scatter_S50000x16_S851968x1_S851968x16_1_0_0_1_wf : ScatterDims.WF S50000x16 S851968x1 S851968x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S851968x64.size a
  hwx1_0 : ∀ i : grid1.Coords, EltTy.bits .f32 = 32 ∨ (Rect.block (s := S851968x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S851968x1.size a
  hwx1_1 : ∀ i : grid1.Coords, EltTy.bits .f32 = 32 ∨ (Rect.block (s := S851968x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S851968x64.size a
  hwx1_2 : ∀ i : grid1.Coords, EltTy.bits .f32 = 32 ∨ (Rect.block (s := S851968x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S50000x16.size a
  hwx3_2 : ∀ i : grid3.Coords, EltTy.bits .f32 = 32 ∨ (Rect.block (s := S50000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x16.size a ≤ S851968x16.size a
  hwx4_0 : ∀ i : grid4.Coords, EltTy.bits .f32 = 32 ∨ (Rect.block (s := S851968x16) S8192x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S851968x1.size a
  hwx4_1 : ∀ i : grid4.Coords, EltTy.bits .f32 = 32 ∨ (Rect.block (s := S851968x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x16.size a ≤ S851968x16.size a
  hwx4_2 : ∀ i : grid4.Coords, EltTy.bits .f32 = 32 ∨ (Rect.block (s := S851968x16) S8192x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S50000x16.size a
  hwx5_0 : ∀ i : grid5.Coords, EltTy.bits .f32 = 32 ∨ (Rect.block (s := S50000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16.size a ≤ S16.size a
  hwx5_1 : ∀ i : grid5.Coords, EltTy.bits .f32 = 32 ∨ (Rect.block (s := S16) S16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S50000x16.size a
  hwx5_2 : ∀ i : grid5.Coords, EltTy.bits .f32 = 32 ∨ (Rect.block (s := S50000x16) S5000x16.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S851968x1_S851968x64_1_0_n_n_0_1_164 : GatherDims S50000x64 S851968x1 S851968x64 where
  offsetDims := [1]
  collapsedSliceDims := [0]
  operandBatchingDims := []
  startIndicesBatchingDims := []
  startIndexMap := [0]
  indexVectorDim := 1
  sliceSizes := ![1, 64]
  wf := gather_S50000x64_S851968x1_S851968x64_1_0_n_n_0_1_164_wf
def scatter_S50000x64_S851968x1_S851968x64_1_0_0_1 : ScatterDims S50000x64 S851968x1 S851968x64 where
  updateWindowDims := [1]
  insertedWindowDims := [0]
  scatterDimsToOperandDims := [0]
  indexVectorDim := 1
  wf := scatter_S50000x64_S851968x1_S851968x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S851968x1_S851968x16_1_0_n_n_0_1_116 : GatherDims S50000x16 S851968x1 S851968x16 where
  offsetDims := [1]
  collapsedSliceDims := [0]
  operandBatchingDims := []
  startIndicesBatchingDims := []
  startIndexMap := [0]
  indexVectorDim := 1
  sliceSizes := ![1, 16]
  wf := gather_S50000x16_S851968x1_S851968x16_1_0_n_n_0_1_116_wf
def scatter_S50000x16_S851968x1_S851968x16_1_0_0_1 : ScatterDims S50000x16 S851968x1 S851968x16 where
  updateWindowDims := [1]
  insertedWindowDims := [0]
  scatterDimsToOperandDims := [0]
  indexVectorDim := 1
  wf := scatter_S50000x16_S851968x1_S851968x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S8192x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S8192x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x16, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x16, .f32⟩
  | .hbm, ⟨72, _⟩ => ⟨S850000x1, .f32⟩
  | .hbm, ⟨73, _⟩ => ⟨S850000x16, .f32⟩
  | .hbm, ⟨74, _⟩ => ⟨S850000x16, .f32⟩
  | .hbm, ⟨75, _⟩ => ⟨S_, .f32⟩
  | .hbm, ⟨76, _⟩ => ⟨S50000x16, .f32⟩
  | .hbm, ⟨77, _⟩ => ⟨S850000x1, .i32⟩
  | .hbm, ⟨78, _⟩ => ⟨S50000x16, .f32⟩
  | .hbm, ⟨79, _⟩ => ⟨S1x16, .f32⟩
  | .hbm, ⟨80, _⟩ => ⟨S50000x16, .f32⟩
  | .hbm, ⟨81, _⟩ => ⟨S50000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.LibRows.lean ====
/-
  Row gathers and row scatter-adds of a table [N, n] at a column of E row indices, read at an index.

  x[idx] for a table x : [N, n] and idx : [E] lowers to a gather with one collapsed axis (the rows), one
  offset axis (the n columns) and start indices [E, 1]; segment_sum(upd, idx, N) lowers to a scatter with an
  add body over the same dimension numbers. Result row e of the gather is row idx[e] of the table, the index
  read signed and clamped into [0, N - 1]. Over the extended reals the scatter's element (r, f) is the operand's
  plus the sum of the updates (e, f) over the e whose index is r (an index outside [0, N) lands nowhere).

  The last lemma is the one a padded edge list needs: a scatter-add over E' ≥ E updates whose first E rows
  are those of a scatter-add over E updates and whose remaining rows are zero is that smaller scatter-add,
  because a zero update adds nothing wherever it lands.
-/
import Idealize.ShloMosaic.PureOps.Ideal
import Idealize.ShloMosaic.Lib.ValueIdx

noncomputable section

open scoped BigOperators

namespace Cert.Rows

open Idealize.ShloMosaic Idealize.ShloMosaic.ValueIdx

/-- The start-indices index [e, 0] that row e of an [E, n] array reads. -/
abbrev rowIdx {E n : Nat} (y : (⟨2, ![E, n]⟩ : Shape).Idx) : (⟨2, ![E, 1]⟩ : Shape).Idx :=
  fun a => match a with | ⟨0, _⟩ => ⟨(y 0).val, idx2_lt0 y⟩ | ⟨1, _⟩ => ⟨0, Nat.one_pos⟩

section Gather
variable {α : Type}

/-- The dimension numbers of x[idx] for x : [N, n], start indices [E, 1], result [E, n]. -/
abbrev rowGatherDims (N E n : Nat)
    (wf : GatherDims.WF ⟨2, ![N, n]⟩ ⟨2, ![E, 1]⟩ ⟨2, ![E, n]⟩ [1] [0] [] [0] [] 1 ![1, n]) :
    GatherDims ⟨2, ![N, n]⟩ ⟨2, ![E, 1]⟩ ⟨2, ![E, n]⟩ where
  offsetDims := [1]
  collapsedSliceDims := [0]
  operandBatchingDims := []
  startIndicesBatchingDims := []
  startIndexMap := [0]
  indexVectorDim := 1
  sliceSizes := ![1, n]
  wf := wf

/-- THE ROW GATHER READ AT (e, f): the table at row idx[e, 0] (signed, clamped into [0, N - 1]), column f. -/
theorem rowGather_apply {N E n w : Nat} (hN : 0 < N)
    (wf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (y : (⟨2, ![E, n]⟩ : Shape).Idx) :
    Host.gather (rowGatherDims N E n wf) x idx y
      = x (ix2 (⟨min (idx (rowIdx y)).toInt.toNat (N - 1), by omega⟩ : Fin N) (⟨(y 1).val, idx2_lt1 y⟩ : Fin n)) := by
  unfold Host.gather
  congr 1
  funext a
  refine Fin.ext ?_
  match a with
  | ⟨0, _⟩ =>
    show (rowGatherDims N E n wf).start y idx 0 + (rowGatherDims N E n wf).batchCoord y 0 + (rowGatherDims N E n wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E n wf).startIndexMap from List.mem_singleton.mpr rfl)]
    have hsi : (rowGatherDims N E n wf).siIdx y ⟨List.idxOf (0 : Fin 2) (rowGatherDims N E n wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowGatherDims N E n wf).start y idx 1 + (rowGatherDims N E n wf).batchCoord y 1 + (rowGatherDims N E n wf).offCoord y 1 = (y 1).val
    rw [GatherDims.batchCoord_eq_zero _ _ _ List.not_mem_nil]
    have hs : (rowGatherDims N E n wf).start y idx 1 = 0 := by
      unfold GatherDims.start
      rw [dif_neg (show (1 : Fin 2) ∉ ([0] : List (Fin 2)) by decide)]
    rw [hs]
    simp only [Nat.add_zero, Nat.zero_add]
    unfold GatherDims.offCoord
    have h1 : (1 : Fin 2) ∈ (rowGatherDims N E n wf).sKept :=
      (by decide : (1 : Fin 2) ∈ (List.finRange 2).filter (· ∉ ([0] ++ [] : List (Fin 2))))
    rw [dif_pos h1]
    rfl

end Gather

section Scatter

/-- The dimension numbers of segment_sum(upd, idx, N) for upd : [E, n], scatter indices [E, 1], operand [N, n]. -/
abbrev rowScatterDims (N E n : Nat)
    (wf : ScatterDims.WF ⟨2, ![N, n]⟩ ⟨2, ![E, 1]⟩ ⟨2, ![E, n]⟩ [1] [0] [0] 1) :
    ScatterDims ⟨2, ![N, n]⟩ ⟨2, ![E, 1]⟩ ⟨2, ![E, n]⟩ where
  updateWindowDims := [1]
  insertedWindowDims := [0]
  scatterDimsToOperandDims := [0]
  indexVectorDim := 1
  wf := wf

variable {N E n w : Nat} (wf : ScatterDims.WF ⟨2, ![N, n]⟩ ⟨2, ![E, 1]⟩ ⟨2, ![E, n]⟩ [1] [0] [0] 1)

theorem rowScatter_start0 (j : (⟨2, ![E, n]⟩ : Shape).Idx) (idx : IVec ⟨2, ![E, 1]⟩ w) :
    (rowScatterDims N E n wf).start j idx 0 = (idx (rowIdx j)).toInt := by
  unfold ScatterDims.start
  rw [dif_pos (show (0 : Fin 2) ∈ (rowScatterDims N E n wf).scatterDimsToOperandDims from List.mem_singleton.mpr rfl)]
  have hsi : (rowScatterDims N E n wf).siIdx j ⟨List.idxOf (0 : Fin 2) (rowScatterDims N E n wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

theorem rowScatter_start1 (j : (⟨2, ![E, n]⟩ : Shape).Idx) (idx : IVec ⟨2, ![E, 1]⟩ w) :
    (rowScatterDims N E n wf).start j idx 1 = 0 := by
  unfold ScatterDims.start
  rw [dif_neg (show (1 : Fin 2) ∉ ([0] : List (Fin 2)) by decide)]

theorem rowScatter_window0 (j : (⟨2, ![E, n]⟩ : Shape).Idx) :
    (rowScatterDims N E n wf).window j 0 = 0 := by
  unfold ScatterDims.window
  have h0 : (0 : Fin 2) ∉ (rowScatterDims N E n wf).sKept :=
    (by decide : (0 : Fin 2) ∉ (List.finRange 2).filter (· ∉ ([0] : List (Fin 2))))
  rw [dif_neg h0]

theorem rowScatter_window1 (j : (⟨2, ![E, n]⟩ : Shape).Idx) :
    (rowScatterDims N E n wf).window j 1 = (j 1).val := by
  unfold ScatterDims.window
  have h1 : (1 : Fin 2) ∈ (rowScatterDims N E n wf).sKept :=
    (by decide : (1 : Fin 2) ∈ (List.finRange 2).filter (· ∉ ([0] : List (Fin 2))))
  rw [dif_pos h1]
  rfl

/-- WHERE UPDATE (e, f) LANDS: at (r, f') exactly when its index idx[e, 0], read signed, is r and f = f'. -/
theorem rowScatter_resultIdx_iff (j : (⟨2, ![E, n]⟩ : Shape).Idx) (idx : IVec ⟨2, ![E, 1]⟩ w)
    (i : (⟨2, ![N, n]⟩ : Shape).Idx) :
    (rowScatterDims N E n wf).resultIdx? j idx = some i
      ↔ (idx (rowIdx j)).toInt = ((i 0).val : Int) ∧ (j 1).val = (i 1).val := by
  have hi0 : (i 0).val < N := idx2_lt0 i
  have hi1 : (i 1).val < n := idx2_lt1 i
  have hj1 : (j 1).val < n := idx2_lt1 j
  unfold ScatterDims.resultIdx?
  split
  · rename_i h
    rw [Option.some.injEq]
    constructor
    · intro e
      have e0 : ((rowScatterDims N E n wf).start j idx 0 + (rowScatterDims N E n wf).window j 0).toNat = (i 0).val :=
        congrArg (fun g : (⟨2, ![N, n]⟩ : Shape).Idx => (g 0).val) e
      have e1 : ((rowScatterDims N E n wf).start j idx 1 + (rowScatterDims N E n wf).window j 1).toNat = (i 1).val :=
        congrArg (fun g : (⟨2, ![N, n]⟩ : Shape).Idx => (g 1).val) e
      have h0 := (h 0).1
      rw [rowScatter_start0, rowScatter_window0] at e0 h0
      rw [rowScatter_start1, rowScatter_window1] at e1
      constructor
      · omega
      · omega
    · rintro ⟨e0, e1⟩
      funext a
      refine Fin.ext ?_
      match a with
      | ⟨0, _⟩ =>
        show ((rowScatterDims N E n wf).start j idx 0 + (rowScatterDims N E n wf).window j 0).toNat = (i 0).val
        rw [rowScatter_start0, rowScatter_window0]; omega
      | ⟨1, _⟩ =>
        show ((rowScatterDims N E n wf).start j idx 1 + (rowScatterDims N E n wf).window j 1).toNat = (i 1).val
        rw [rowScatter_start1, rowScatter_window1]; omega
  · rename_i h
    constructor
    · intro e; exact absurd e (by simp)
    · rintro ⟨e0, e1⟩
      exfalso; apply h
      intro a
      match a with
      | ⟨0, _⟩ =>
        show 0 ≤ (rowScatterDims N E n wf).start j idx 0 + (rowScatterDims N E n wf).window j 0
          ∧ (rowScatterDims N E n wf).start j idx 0 + (rowScatterDims N E n wf).window j 0 < (N : Int)
        rw [rowScatter_start0, rowScatter_window0]; omega
      | ⟨1, _⟩ =>
        show 0 ≤ (rowScatterDims N E n wf).start j idx 1 + (rowScatterDims N E n wf).window j 1
          ∧ (rowScatterDims N E n wf).start j idx 1 + (rowScatterDims N E n wf).window j 1 < (n : Int)
        rw [rowScatter_start1, rowScatter_window1]; omega

end Scatter

end Cert.Rows

end
-- ==== Proof.KerVal.lean ====
/-
  The value the kernel's program computes, as ONE function of its six argument arrays over the extended reals.

  A two-layer graph convolution. The edge list is the 800000 given edges followed by 50000 self loops; deg counts,
  per node, the edges that end there; an edge's weight is rsqrt(deg[src]) * rsqrt(deg[dst]). The program pads the
  edge list to 851968 = 104 * 8192 edges with source 0, destination 0 and WEIGHT ZERO. A layer is: the dense product
  h = x W (a kernel, row block by row block); the rows of h at the edges' sources (a host gather); each gathered
  row times its edge's weight (a kernel, edge block by edge block); the sum of those rows into their edges'
  destinations (a host scatter-add); plus the bias, and for the first layer the maximum with zero (a kernel).
  Each kernel's array after its run is named here by its closed form at an index (mm64, scale64, ...).
-/
import proofs.«179984_j48653389529562_1_alg».proof.KernelIdeal
import proofs.«179984_j48653389529562_1_alg».proof.Proof.Gen.KernelIdeal
import proofs.«179984_j48653389529562_1_alg».proof.Proof.LibRows

noncomputable section

open scoped BigOperators

namespace Cert.KernelIdeal.Val

open Cert.KernelIdeal Cert.KernelIdeal.Gen Idealize.ShloMosaic Idealize.ShloMosaic.ValueIdx Cert.Rows

/-! ## The edge list and its weights (the host operations before the first kernel) -/

/-- The edges' sources: row 0 of the edge array, then the self loops 0, 1, ..., 49999. -/
def srcOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The edges' destinations: row 1 of the edge array, then the self loops. -/
def dstOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A negative index counts from the end: v + 50000 where v < 0. -/
def wrapIdx (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- deg: per node, the number of edges that end there, as a sum of ones. -/
def degOf (ei : IVec S2x800000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (dstOf ei))
    (broadcastInDim S850000 ![] bcast_S_S850000 (constant S_ .f32 0x3F800000#32))

/-- An edge's weight: rsqrt(deg) at its source times rsqrt(deg) at its destination. -/
def normOf (ei : IVec S2x800000 32) : FVec Ideal S850000 .f32 :=
  mulf
    (Host.gather gather_S50000_S850000x1_S850000_n_0_n_n_0_1_1 (Host.rsqrt (degOf ei))
      (broadcastInDim S850000x1 ![0] bcast_S850000_S850000x1_0 (wrapIdx (srcOf ei))))
    (Host.gather gather_S50000_S850000x1_S850000_n_0_n_n_0_1_1 (Host.rsqrt (degOf ei))
      (broadcastInDim S850000x1 ![0] bcast_S850000_S850000x1_0 (wrapIdx (dstOf ei))))

/-- An index list padded to 851968 entries with zeros. -/
def padI (v : IVec S850000 32) : IVec S851968 32 :=
  concatenate S851968 0 [⟨S850000, v⟩, ⟨S1968, broadcastInDim S1968 ![] bcast_S_S1968 (constantI S_ 32 0#32)⟩] concatenates_S850000_S1968_S851968_d0

/-- The weights padded to 851968 entries with zeros. -/
def padF (v : FVec Ideal S850000 .f32) : FVec Ideal S851968 .f32 :=
  concatenate S851968 0 [⟨S850000, v⟩, ⟨S1968, broadcastInDim S1968 ![] bcast_S_S1968 (constant S_ .f32 0x00000000#32)⟩] concatenates_S850000_S1968_S851968_d0

/-- The padded weights as a column [851968, 1]. -/
def normCol (ei : IVec S2x800000 32) : FVec Ideal S851968x1 .f32 :=
  shapeCast S851968x1 (padF (normOf ei)) shapeCasts_S851968_S851968x1

/-- The padded list's wrap of negative indices. -/
def wrapIdxP (v : IVec S851968 32) : IVec S851968 32 :=
  select (cmpi .slt v (broadcastInDim S851968 ![] bcast_S_S851968 (constantI S_ 32 0#32)))
    (addi v (broadcastInDim S851968 ![] bcast_S_S851968 (constantI S_ 32 50000#32))) v

/-- A padded index list as a column [851968, 1]. -/
def colP (v : IVec S851968 32) : IVec S851968x1 32 :=
  broadcastInDim S851968x1 ![0] bcast_S851968_S851968x1_0 v

/-! ## What each kernel leaves in its output array, at an index -/

/-- The dense product x W of a [50000, 64] array and a [64, 64] array. -/
def mm64 (x : FVec Ideal S50000x64 .f32) (W : FVec Ideal S64x64 .f32) : FVec Ideal S50000x64 .f32 :=
  fun i => ∑ k : Fin 64, x (ix2 (⟨(i 0).val, idx2_lt0 i⟩ : Fin 50000) k) * W (ix2 k (⟨(i 1).val, idx2_lt1 i⟩ : Fin 64))

/-- The dense product x W of a [50000, 64] array and a [64, 16] array. -/
def mm16 (x : FVec Ideal S50000x64 .f32) (W : FVec Ideal S64x16 .f32) : FVec Ideal S50000x16 .f32 :=
  fun i => ∑ k : Fin 64, x (ix2 (⟨(i 0).val, idx2_lt0 i⟩ : Fin 50000) k) * W (ix2 k (⟨(i 1).val, idx2_lt1 i⟩ : Fin 16))

/-- Row e of the gathered features times edge e's weight. -/
def scale64 (hg : FVec Ideal S851968x64 .f32) (nc : FVec Ideal S851968x1 .f32) : FVec Ideal S851968x64 .f32 :=
  fun i => FloatOps.mulf (hg i) (nc (rowIdx i))

/-- Row e of the gathered features times edge e's weight. -/
def scale16 (hg : FVec Ideal S851968x16 .f32) (nc : FVec Ideal S851968x1 .f32) : FVec Ideal S851968x16 .f32 :=
  fun i => FloatOps.mulf (hg i) (nc (rowIdx i))

/-- The aggregate plus the bias of its column, then the maximum with zero. -/
def biasRelu64 (a : FVec Ideal S50000x64 .f32) (b : FVec Ideal S64 .f32) : FVec Ideal S50000x64 .f32 :=
  fun i => FloatOps.maximumf (FloatOps.addf (a i) (b (ix1 (⟨(i 1).val, idx2_lt1 i⟩ : Fin 64)))) (FloatOps.ofBits .f32 0x00000000#32)

/-- The aggregate plus the bias of its column. -/
def bias16 (a : FVec Ideal S50000x16 .f32) (b : FVec Ideal S16 .f32) : FVec Ideal S50000x16 .f32 :=
  fun i => FloatOps.addf (a i) (b (ix1 (⟨(i 1).val, idx2_lt1 i⟩ : Fin 16)))

/-! ## The layers and the whole program -/

/-- The first layer: product, gather at the sources, weights, sum into the destinations, bias, maximum with zero. -/
def layer1 (x : FVec Ideal S50000x64 .f32) (W : FVec Ideal S64x64 .f32) (b : FVec Ideal S64 .f32)
    (srcP dstP : IVec S851968 32) (nc : FVec Ideal S851968x1 .f32) : FVec Ideal S50000x64 .f32 :=
  biasRelu64
    (Host.scatterAdd scatter_S50000x64_S851968x1_S851968x64_1_0_0_1
      (broadcastInDim S50000x64 ![] bcast_S_S50000x64 (constant S_ .f32 0x00000000#32))
      (colP dstP)
      (scale64 (Host.gather gather_S50000x64_S851968x1_S851968x64_1_0_n_n_0_1_164 (mm64 x W) (colP (wrapIdxP srcP))) nc))
    b

/-- The second layer: the same with 16 columns and no maximum. -/
def layer2 (x : FVec Ideal S50000x64 .f32) (W : FVec Ideal S64x16 .f32) (b : FVec Ideal S16 .f32)
    (srcP dstP : IVec S851968 32) (nc : FVec Ideal S851968x1 .f32) : FVec Ideal S50000x16 .f32 :=
  bias16
    (Host.scatterAdd scatter_S50000x16_S851968x1_S851968x16_1_0_0_1
      (broadcastInDim S50000x16 ![] bcast_S_S50000x16 (constant S_ .f32 0x00000000#32))
      (colP dstP)
      (scale16 (Host.gather gather_S50000x16_S851968x1_S851968x16_1_0_n_n_0_1_116 (mm16 x W) (colP (wrapIdxP srcP))) nc))
    b

/-- THE PROGRAM'S RESULT as a function of its arguments. -/
def kerVal (x : FVec Ideal S50000x64 .f32) (ei : IVec S2x800000 32) (W1 : FVec Ideal S64x64 .f32) (b1 : FVec Ideal S64 .f32)
    (W2 : FVec Ideal S64x16 .f32) (b2 : FVec Ideal S16 .f32) : FVec Ideal S50000x16 .f32 :=
  layer2 (layer1 x W1 b1 (padI (srcOf ei)) (padI (dstOf ei)) (normCol ei)) W2 b2 (padI (srcOf ei)) (padI (dstOf ei)) (normCol ei)

end Cert.KernelIdeal.Val

end
-- ==== Proof.KerStart.lean ====
/-
  The first stretch of host operations, read back: after it the argument buffers are as launched, and the padded
  sources and destinations are the edge list with its self loops and its 1968 zero entries appended.
-/
import proofs.«179984_j48653389529562_1_alg».proof.Proof.Gen.KernelIdeal.Frame
import proofs.«179984_j48653389529562_1_alg».proof.Proof.KerVal
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- One boundary back through a stretch of host operations none of which writes the buffer read. -/
macro "host_back" ops:ident : tactic => `(tactic| (
  refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_))

/-! ## After the first host stretch: the arguments as launched, the padded edge list and weights -/

theorem W1_arg0 (c : Dev nD) : W1 m ρ c (Proc.devRef .tc main_arg0) = m ((c : Thread nD τ).loc main_arg0) := by
  host_back hostOps0
  rfl
theorem W1_arg2 (c : Dev nD) : W1 m ρ c (Proc.devRef .tc main_arg2) = m ((c : Thread nD τ).loc main_arg2) := by
  host_back hostOps0
  rfl
theorem W1_arg3 (c : Dev nD) : W1 m ρ c (Proc.devRef .tc main_arg3) = m ((c : Thread nD τ).loc main_arg3) := by
  host_back hostOps0
  rfl
theorem W1_arg4 (c : Dev nD) : W1 m ρ c (Proc.devRef .tc main_arg4) = m ((c : Thread nD τ).loc main_arg4) := by
  host_back hostOps0
  rfl
theorem W1_arg5 (c : Dev nD) : W1 m ρ c (Proc.devRef .tc main_arg5) = m ((c : Thread nD τ).loc main_arg5) := by
  host_back hostOps0
  rfl

/-- The padded sources. -/
theorem W1_v28 (c : Dev nD) :
    W1 m ρ c (Proc.devRef .tc main_v28) = Val.padI (Val.srcOf (m ((c : Thread nD τ).loc main_arg1))) := by
  show StableHlo.after hostOps0 (W0 m ρ c) (Proc.devRef .tc main_v28) = _
  dsimp only [hostOps0]
  after_results
  rfl

/-- The padded destinations. -/
theorem W1_v30 (c : Dev nD) :
    W1 m ρ c (Proc.devRef .tc main_v30) = Val.padI (Val.dstOf (m ((c : Thread nD τ).loc main_arg1))) := by
  show StableHlo.after hostOps0 (W0 m ρ c) (Proc.devRef .tc main_v30) = _
  dsimp only [hostOps0]
  after_results
  rfl

end Cert.KernelIdeal.Chain

end
-- ==== Proof.KerStartW.lean ====
/-
  The first stretch of host operations, read back at the weights' column: the edge weights
  rsqrt(deg[src]) * rsqrt(deg[dst]), padded with 1968 zeros and reshaped to a column. The degrees, the two gathers
  and the edge list's pieces are each used several times on the way, so this one reading is long.
-/
import proofs.«179984_j48653389529562_1_alg».proof.Proof.Gen.KernelIdeal.Frame
import proofs.«179984_j48653389529562_1_alg».proof.Proof.KerVal
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 16000000 in
/-- The padded weights as a column. -/
theorem W1_v33 (c : Dev nD) :
    W1 m ρ c (Proc.devRef .tc main_v33) = Val.normCol (m ((c : Thread nD τ).loc main_arg1)) := by
  show StableHlo.after hostOps0 (W0 m ρ c) (Proc.devRef .tc main_v33) = _
  dsimp only [hostOps0]
  after_results
  rfl

end Cert.KernelIdeal.Chain

end
-- ==== Proof.RegMatmul.lean ====
import proofs.«179984_j48653389529562_1_alg».proof.Proof.Gen.KernelIdeal.Frame
import proofs.«179984_j48653389529562_1_alg».proof.Proof.KerVal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx Cert.Rows
open Idealize.ShloMosaic.Pipeline (Dat Cfg Window)

variable (V : (c : Dev nD) → (b : Ref sig .tc) → Buf (Elt Ideal) ((c : Thread nD τ).loc b))

/-! ## The product of a row block with the whole weight array, at an index -/

/-- A whole-block access starts at the origin. -/
theorem origin2 : (![0, 0] : Fin 2 → Nat) = fun _ => 0 := funext fun a => by fin_cases a <;> rfl

/-- The left operand's row is the output's row. -/
theorem lhs64_0 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin S5000x64.rank) ∈ Cert.KernelIdeal.dot_S5000x64_S64x64_S5000x64_1_0_0_1_n_n.lhsBatch by decide), dif_pos (show (0 : Fin S5000x64.rank) ∈ Cert.KernelIdeal.dot_S5000x64_S64x64_S5000x64_1_0_0_1_n_n.lhsNonContracting by decide)]
  rfl
/-- The left operand's column is the summation index. -/
theorem lhs64_1 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
/-- The right operand's row is the summation index. -/
theorem rhs64_0 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
/-- The right operand's column is the output's column. -/
theorem rhs64_1 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin S64x64.rank) ∈ Cert.KernelIdeal.dot_S5000x64_S64x64_S5000x64_1_0_0_1_n_n.rhsBatch by decide), dif_pos (show (1 : Fin S64x64.rank) ∈ Cert.KernelIdeal.dot_S5000x64_S64x64_S5000x64_1_0_0_1_n_n.rhsNonContracting by decide)]
  rfl

/-- What the body stores at (p, q) of its block: the sum over k of the row block at (p, k) times the weights at (k, q).
    The conversions to the narrow format are exact here and the accumulator starts at zero. -/
theorem pay64_apply (x0 : Vec Ideal S5000x64 .f32) (x1 : Vec Ideal S64x64 .f32) (j : S5000x64.Idx) :
    k0_pay1 (F := Ideal) x0 x1 j
      = ∑ k : Fin 64, x0 (ix2 (⟨(j 0).val, idx2_lt0 j⟩ : Fin 5000) k) * x1 (ix2 k (⟨(j 1).val, idx2_lt1 j⟩ : Fin 64)) := by
  unfold k0_pay1
  simp only [matmul]
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  have hk := ValueIdx.contrEquiv1_symm_val Cert.KernelIdeal.dot_S5000x64_S64x64_S5000x64_1_0_0_1_n_n 64 rfl rfl k
  have el : Cert.KernelIdeal.dot_S5000x64_S64x64_S5000x64_1_0_0_1_n_n.lhsIdx j ((ValueIdx.contrEquiv1 Cert.KernelIdeal.dot_S5000x64_S64x64_S5000x64_1_0_0_1_n_n 64 rfl rfl).symm k) = ix2 (⟨(j 0).val, idx2_lt0 j⟩ : Fin 5000) k := funext fun a => Fin.ext (by
    match a with
    | ⟨0, _⟩ => exact lhs64_0 _ _
    | ⟨1, _⟩ => exact (lhs64_1 _ _).trans hk)
  have er : Cert.KernelIdeal.dot_S5000x64_S64x64_S5000x64_1_0_0_1_n_n.rhsIdx j ((ValueIdx.contrEquiv1 Cert.KernelIdeal.dot_S5000x64_S64x64_S5000x64_1_0_0_1_n_n 64 rfl rfl).symm k) = ix2 k (⟨(j 1).val, idx2_lt1 j⟩ : Fin 64) := funext fun a => Fin.ext (by
    match a with
    | ⟨0, _⟩ => exact (rhs64_0 _ _).trans hk
    | ⟨1, _⟩ => exact rhs64_1 _ _)
  show x0 _ * x1 _ = _
  rw [el, er]

/-! ## Region 0: block t of the output is block t of the product -/

/-- The block indices over the grid: the row blocks of the input and of the output move together along the rows, the
    weights' block stays at the origin, and no window moves along the columns. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem blocks0_onto : ∀ q : Fin 10, ∃ t : Fin cfg0.N, win0_2.index t = ![q.val, 0] :=
  (by decide +kernel : ∀ q : Fin 10, ∃ t : Fin grid0.N, win0_2.index t = ![q.val, 0])

/-- What grid point t writes back is block t of the product of the two arrays as the region finds them. -/
theorem flushed0_eq (c : Dev nD) (t : Fin cfg0.N) :
    (dat0 (F := Ideal) V c).flushed 2 t
      = ((cfg0.win 2).blk t).view.read (Elt Ideal) (Val.mm64 (V c main_arg0) (V c main_arg2)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  obtain ⟨e0, e1, e2, e3, e4, e5⟩ := blocks0 t
  funext j
  refine (pay64_apply (iblk0 V c 0 t) (iblk0 V c 1 t) j).trans ?_
  show _ = Val.mm64 (V c main_arg0) (V c main_arg2) (((cfg0.win 2).blk t).view.emb j)
  unfold Val.mm64
  beta_reduce
  refine Finset.sum_congr rfl fun k _ => ?_
  -- row p of the row block is row 5000 t + p of the array, and its column k is column k
  have h0 : ((cfg0.win 0).blk t).view.emb (ix2 (⟨(j 0).val, idx2_lt0 j⟩ : Fin 5000) k)
      = ix2 (⟨((((cfg0.win 2).blk t).view.emb j) 0).val, idx2_lt0 _⟩ : Fin 50000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  -- the weights' block is the whole array
  have h1 : ((cfg0.win 1).blk t).view.emb (ix2 k (⟨(j 1).val, idx2_lt1 j⟩ : Fin 64))
      = ix2 k (⟨((((cfg0.win 2).blk t).view.emb j) 1).val, idx2_lt1 _⟩ : Fin 64) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact congrArg₂ (fun a b : Elt Ideal .f32 => a * b) (congrArg (V c main_arg0) h0) (congrArg (V c main_arg2) h1)

/-- An index of the output array is in grid point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- The ten row blocks tile the 50000 rows: row r is in block r / 5000, and that block is written back. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := blocks0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- Region 0 (the dense product, 64 columns): the output array after the run, whole. -/
theorem arr0 (c : Dev nD) : (dat0 (F := Ideal) V c).arrAt 2 cfg0.N = Val.mm64 (V c main_arg0) (V c main_arg2) :=
  (dat0 (F := Ideal) V c).arrAt_eq_of_cover 2 (Val.mm64 (V c main_arg0) (V c main_arg2))
    (fun t _ => flushed0_eq V c t) cover0

/-! ## The same with 16 columns -/

/-- The left operand's row is the output's row. -/
theorem lhs16_0 (i : S5000x16.Idx) (q : Cert.KernelIdeal.dot_S5000x64_S64x16_S5000x16_1_0_0_1_n_n.contr.Idx) :
    (Cert.KernelIdeal.dot_S5000x64_S64x16_S5000x16_1_0_0_1_n_n.lhsIdx i q 0).val = (i 0).val := by
  unfold DotDims.lhsIdx
  rw [dif_neg (show ¬(0 : Fin S5000x64.rank) ∈ Cert.KernelIdeal.dot_S5000x64_S64x16_S5000x16_1_0_0_1_n_n.lhsBatch by decide), dif_pos (show (0 : Fin S5000x64.rank) ∈ Cert.KernelIdeal.dot_S5000x64_S64x16_S5000x16_1_0_0_1_n_n.lhsNonContracting by decide)]
  rfl
/-- The left operand's column is the summation index. -/
theorem lhs16_1 (i : S5000x16.Idx) (q : Cert.KernelIdeal.dot_S5000x64_S64x16_S5000x16_1_0_0_1_n_n.contr.Idx) :
    (Cert.KernelIdeal.dot_S5000x64_S64x16_S5000x16_1_0_0_1_n_n.lhsIdx i q 1).val = (q ⟨0, by decide⟩).val :=
  Cert.KernelIdeal.dot_S5000x64_S64x16_S5000x16_1_0_0_1_n_n.lhsIdx_val_of_single rfl i q
/-- The right operand's row is the summation index. -/
theorem rhs16_0 (i : S5000x16.Idx) (q : Cert.KernelIdeal.dot_S5000x64_S64x16_S5000x16_1_0_0_1_n_n.contr.Idx) :
    (Cert.KernelIdeal.dot_S5000x64_S64x16_S5000x16_1_0_0_1_n_n.rhsIdx i q 0).val = (q ⟨0, by decide⟩).val :=
  Cert.KernelIdeal.dot_S5000x64_S64x16_S5000x16_1_0_0_1_n_n.rhsIdx_val_of_single rfl i q
/-- The right operand's column is the output's column. -/
theorem rhs16_1 (i : S5000x16.Idx) (q : Cert.KernelIdeal.dot_S5000x64_S64x16_S5000x16_1_0_0_1_n_n.contr.Idx) :
    (Cert.KernelIdeal.dot_S5000x64_S64x16_S5000x16_1_0_0_1_n_n.rhsIdx i q 1).val = (i 1).val := by
  unfold DotDims.rhsIdx
  rw [dif_neg (show ¬(1 : Fin S64x16.rank) ∈ Cert.KernelIdeal.dot_S5000x64_S64x16_S5000x16_1_0_0_1_n_n.rhsBatch by decide), dif_pos (show (1 : Fin S64x16.rank) ∈ Cert.KernelIdeal.dot_S5000x64_S64x16_S5000x16_1_0_0_1_n_n.rhsNonContracting by decide)]
  rfl

/-- What the body stores at (p, q) of its block: the sum over k of the row block at (p, k) times the weights at (k, q).
    The reshape to the same shape is the identity, the conversions to the narrow format are exact here and the
    accumulator starts at zero. -/
theorem pay16_apply (x0 : Vec Ideal S5000x64 .f32) (x1 : Vec Ideal S64x16 .f32) (j : S5000x16.Idx) :
    k3_pay1 (F := Ideal) x0 x1 j
      = ∑ k : Fin 64, x0 (ix2 (⟨(j 0).val, idx2_lt0 j⟩ : Fin 5000) k) * x1 (ix2 k (⟨(j 1).val, idx2_lt1 j⟩ : Fin 16)) := by
  unfold k3_pay1
  simp only [matmul]
  rw [shapeCast_self]
  rw [Ideal.matmul_constant_zero_apply, ← Equiv.sum_comp (ValueIdx.contrEquiv1 Cert.KernelIdeal.dot_S5000x64_S64x16_S5000x16_1_0_0_1_n_n 64 rfl rfl).symm]
  refine Finset.sum_congr rfl fun k _ => ?_
  have hk := ValueIdx.contrEquiv1_symm_val Cert.KernelIdeal.dot_S5000x64_S64x16_S5000x16_1_0_0_1_n_n 64 rfl rfl k
  have el : Cert.KernelIdeal.dot_S5000x64_S64x16_S5000x16_1_0_0_1_n_n.lhsIdx j ((ValueIdx.contrEquiv1 Cert.KernelIdeal.dot_S5000x64_S64x16_S5000x16_1_0_0_1_n_n 64 rfl rfl).symm k) = ix2 (⟨(j 0).val, idx2_lt0 j⟩ : Fin 5000) k := funext fun a => Fin.ext (by
    match a with
    | ⟨0, _⟩ => exact lhs16_0 _ _
    | ⟨1, _⟩ => exact (lhs16_1 _ _).trans hk)
  have er : Cert.KernelIdeal.dot_S5000x64_S64x16_S5000x16_1_0_0_1_n_n.rhsIdx j ((ValueIdx.contrEquiv1 Cert.KernelIdeal.dot_S5000x64_S64x16_S5000x16_1_0_0_1_n_n 64 rfl rfl).symm k) = ix2 k (⟨(j 1).val, idx2_lt1 j⟩ : Fin 16) := funext fun a => Fin.ext (by
    match a with
    | ⟨0, _⟩ => exact (rhs16_0 _ _).trans hk
    | ⟨1, _⟩ => exact rhs16_1 _ _)
  show x0 _ * x1 _ = _
  rw [el, er]

/-! ## Region 3: block t of the output is block t of the product -/

/-- The block indices over the grid, as in region 0. -/
theorem blocks3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten row blocks is some grid point's. -/
theorem blocks3_onto : ∀ q : Fin 10, ∃ t : Fin cfg3.N, win3_2.index t = ![q.val, 0] :=
  (by decide +kernel : ∀ q : Fin 10, ∃ t : Fin grid3.N, win3_2.index t = ![q.val, 0])

/-- What grid point t writes back is block t of the product of the two arrays as the region finds them. -/
theorem flushed3_eq (c : Dev nD) (t : Fin cfg3.N) :
    (dat3 (F := Ideal) V c).flushed 2 t
      = ((cfg3.win 2).blk t).view.read (Elt Ideal) (Val.mm16 (V c main_v46) (V c main_arg4)) := by
  show (cfg3.win 2).cut (grid3.coords t) ((dat3 V c).after 2 t) = _
  rw [after3_2]
  unfold out3_2
  rw [View.canon_unit_zero origin2]
  simp only [View.ld_unit_zero (S := S5000x64) origin2, View.ld_unit_zero (S := S64x16) origin2]
  obtain ⟨e0, e1, e2, e3, e4, e5⟩ := blocks3 t
  funext j
  refine (pay16_apply (iblk3 V c 0 t) (iblk3 V c 1 t) j).trans ?_
  show _ = Val.mm16 (V c main_v46) (V c main_arg4) (((cfg3.win 2).blk t).view.emb j)
  unfold Val.mm16
  beta_reduce
  refine Finset.sum_congr rfl fun k _ => ?_
  -- row p of the row block is row 5000 t + p of the array, and its column k is column k
  have h0 : ((cfg3.win 0).blk t).view.emb (ix2 (⟨(j 0).val, idx2_lt0 j⟩ : Fin 5000) k)
      = ix2 (⟨((((cfg3.win 2).blk t).view.emb j) 0).val, idx2_lt0 _⟩ : Fin 50000) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  -- the weights' block is the whole array
  have h1 : ((cfg3.win 1).blk t).view.emb (ix2 k (⟨(j 1).val, idx2_lt1 j⟩ : Fin 16))
      = ix2 k (⟨((((cfg3.win 2).blk t).view.emb j) 1).val, idx2_lt1 _⟩ : Fin 16) := by
    funext a; apply Fin.ext
    match a with
    | ⟨0, _⟩ => show win3_1.index t (0 : Fin 2) * 64 + 1 * k.val = k.val; omega
    | ⟨1, _⟩ => show win3_1.index t (1 : Fin 2) * 16 + 1 * (j 1).val = win3_2.index t (1 : Fin 2) * 16 + 1 * (j 1).val; omega
  exact congrArg₂ (fun a b : Elt Ideal .f32 => a * b) (congrArg (V c main_v46) h0) (congrArg (V c main_arg4) h1)

/-- An index of the output array is in grid point t's block iff each coordinate is in the block's range on its axis. -/
theorem mem_blk3 (t : Fin cfg3.N) (i : S50000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v47).slice (win3_2.rect t)).set ↔ _
  rw [View.set_slice_whole, Rect.mem_set_unit]
  exact Iff.rfl

/-- The ten row blocks tile the 50000 rows: row r is in block r / 5000, and that block is written back. -/
theorem cover3 (i : S50000x16.Idx) :
    ∃ t : Fin cfg3.N, (cfg3.win 2).flush t = true ∧ i ∈ ((cfg3.win 2).blk t).view.set := by
  have hi0 : (i 0).val < 50000 := (i 0).isLt
  have hi1 : (i 1).val < 16 := (i 1).isLt
  obtain ⟨t, ht⟩ := blocks3_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- Region 3 (the dense product, 16 columns): the output array after the run, whole. -/
theorem arr3 (c : Dev nD) : (dat3 (F := Ideal) V c).arrAt 2 cfg3.N = Val.mm16 (V c main_v46) (V c main_arg4) :=
  (dat3 (F := Ideal) V c).arrAt_eq_of_cover 2 (Val.mm16 (V c main_v46) (V c main_arg4))
    (fun t _ => flushed3_eq V c t) cover3

end Cert.KernelIdeal.Reg

end
-- ==== Proof.RegScale.lean ====
import proofs.«179984_j48653389529562_1_alg».proof.Proof.Gen.KernelIdeal.Frame
import proofs.«179984_j48653389529562_1_alg».proof.Proof.KerVal
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx Cert.Rows
open Idealize.ShloMosaic.Pipeline (Dat Cfg Window)

variable (V : (c : Dev nD) → (b : Ref sig .tc) → Buf (Elt Ideal) ((c : Thread nD τ).loc b))

/-! ## Region 1: rows of 64 features times their edge's weight -/

/-- The zero offsets of a whole block, however the zeros are spelt. -/
theorem zero2 : (![0, 0] : Fin 2 → Nat) = fun _ => 0 := funext fun a => by fin_cases a <;> rfl

/-- The body's payload at an index: the feature there times the weight of its row (the column [8192, 1]
    broadcast along the 64 features reads its row's one entry). -/
theorem pay1_apply (x0 : Vec Ideal S8192x64 .f32) (x1 : Vec Ideal S8192x1 .f32) (j : S8192x64.Idx) :
    k1_pay1 (F := Ideal) x0 x1 j = FloatOps.mulf (x0 j) (x1 (rowIdx j)) := by
  unfold k1_pay1
  simp only [shapeCast_self]
  show (FloatOps.mulf (x0 j) (broadcastTo S8192x64 x1 broadcasts_S8192x1_S8192x64 j) : Ideal .f32) = _
  rw [broadcastTo_apply x1 broadcasts_S8192x1_S8192x64 j (rowIdx j)]
  intro a
  match a with
  | ⟨0, _⟩ => rfl
  | ⟨1, _⟩ => rfl

/-- The windows' index maps over the grid: at point t every window's block index is (t, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The features' block at point t: rows 8192 t + r of the features' array. -/
theorem iblk1_0_apply (c : Dev nD) (t : Fin cfg1.N) (x : S8192x64.Idx) (k : S851968x64.Idx)
    (hk0 : (k 0).val = t.val * 8192 + (x 0).val) (hk1 : (k 1).val = (x 1).val) :
    (iblk1 (F := Ideal) V c 0 t : Vec Ideal S8192x64 .f32) x = (V c main_v41 : S851968x64.Idx → Elt Ideal .f32) k := by
  obtain ⟨e0, e1, -, -, -, -⟩ := idx1 t
  unfold iblk1
  rw [View.read_apply]
  show V c main_v41 _ = V c main_v41 _
  congr 1
  funext a
  apply Fin.ext
  match a with
  | ⟨0, _⟩ => show win1_0.index t 0 * 8192 + 1 * (x 0).val = (k 0).val; rw [e0, hk0]; omega
  | ⟨1, _⟩ => show win1_0.index t 1 * 64 + 1 * (x 1).val = (k 1).val; rw [e1, hk1]; omega

/-- The weights' block at point t: rows 8192 t + r of the weights' column. -/
theorem iblk1_1_apply (c : Dev nD) (t : Fin cfg1.N) (x : S8192x1.Idx) (k : S851968x1.Idx)
    (hk0 : (k 0).val = t.val * 8192 + (x 0).val) (hk1 : (k 1).val = (x 1).val) :
    (iblk1 (F := Ideal) V c 1 t : Vec Ideal S8192x1 .f32) x = (V c main_v33 : S851968x1.Idx → Elt Ideal .f32) k := by
  obtain ⟨-, -, e0, e1, -, -⟩ := idx1 t
  unfold iblk1
  rw [View.read_apply]
  show V c main_v33 _ = V c main_v33 _
  congr 1
  funext a
  apply Fin.ext
  match a with
  | ⟨0, _⟩ => show win1_1.index t 0 * 8192 + 1 * (x 0).val = (k 0).val; rw [e0, hk0]; omega
  | ⟨1, _⟩ => show win1_1.index t 1 * 1 + 1 * (x 1).val = (k 1).val; rw [e1, hk1]; omega

/-- WHAT POINT t WRITES BACK is block t of the scaled rows. -/
theorem flushed1_eq (c : Dev nD) (t : Fin cfg1.N) :
    (dat1 (F := Ideal) V c).flushed 2 t
      = ((cfg1.win 2).blk t).view.read (Elt Ideal) (Val.scale64 (V c main_v41) (V c main_v33)) := by
  show (cfg1.win 2).cut (grid1.coords t) ((dat1 (F := Ideal) V c).after 2 t) = _
  rw [after1_2]
  unfold out1_2
  rw [View.canon_unit_zero zero2]
  simp only [View.ld_unit_zero (S := S8192x64) zero2, View.ld_unit_zero (S := S8192x1) zero2]
  obtain ⟨-, -, -, -, e0, e1⟩ := idx1 t
  funext j
  rw [View.read_apply]
  show k1_pay1 (F := Ideal) (iblk1 V c 0 t) (iblk1 V c 1 t) j = Val.scale64 (V c main_v41) (V c main_v33) (((cfg1.win 2).blk t).view.emb j)
  refine (pay1_apply _ _ j).trans ?_
  have h0 : (((cfg1.win 2).blk t).view.emb j 0).val = t.val * 8192 + (j 0).val := by
    show win1_2.index t 0 * 8192 + 1 * (j 0).val = _; rw [e0]; omega
  have h1 : (((cfg1.win 2).blk t).view.emb j 1).val = (j 1).val := by
    show win1_2.index t 1 * 64 + 1 * (j 1).val = _; rw [e1]; omega
  unfold Val.scale64
  show (FloatOps.mulf _ _ : Ideal .f32) = FloatOps.mulf _ _
  rw [iblk1_0_apply V c t j (((cfg1.win 2).blk t).view.emb j) h0 h1,
    iblk1_1_apply V c t (rowIdx j) (rowIdx (((cfg1.win 2).blk t).view.emb j)) h0 rfl]

/-- Every row block of the output is some point's: block q is point q's. -/
theorem idx1_onto : ∀ q : Fin 104, ∃ t : Fin cfg1.N, win1_2.index t = ![q.val, 0] :=
  (by decide +kernel : ∀ q : Fin 104, ∃ t : Fin grid1.N, win1_2.index t = ![q.val, 0])

/-- An index of the output array is in point t's block iff each coordinate is in the block's range on its axis. -/
theorem mem_blk1 (t : Fin cfg1.N) (i : S851968x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v42).slice (win1_2.rect t)).set ↔ _
  rw [View.set_slice_whole, Rect.mem_set_unit]
  exact Iff.rfl

/-- The 104 row blocks tile the 851968 rows: every index is in the block of its row's quotient by 8192. -/
theorem cover1 (i : S851968x64.Idx) :
    ∃ t : Fin cfg1.N, (cfg1.win 2).flush t = true ∧ i ∈ ((cfg1.win 2).blk t).view.set := by
  have hi0 : (i 0).val < 851968 := (i 0).isLt
  have hi1 : (i 1).val < 64 := (i 1).isLt
  obtain ⟨t, ht⟩ := idx1_onto ⟨(i 0).val / 8192, by omega⟩
  have q0 : win1_2.index t (0 : Fin 2) = (i 0).val / 8192 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- Region 1 (the per-edge scale, 64 columns): the output array after the run, whole. -/
theorem arr1 (c : Dev nD) : (dat1 (F := Ideal) V c).arrAt 2 cfg1.N = Val.scale64 (V c main_v41) (V c main_v33) :=
  (dat1 (F := Ideal) V c).arrAt_eq_of_cover 2 (Val.scale64 (V c main_v41) (V c main_v33))
    (fun t _ => flushed1_eq V c t) cover1

/-! ## Region 4: rows of 16 features times their edge's weight -/

/-- The body's payload at an index: the feature there times the weight of its row (the column [8192, 1]
    broadcast along the 16 features reads its row's one entry). -/
theorem pay4_apply (x0 : Vec Ideal S8192x16 .f32) (x1 : Vec Ideal S8192x1 .f32) (j : S8192x16.Idx) :
    k4_pay1 (F := Ideal) x0 x1 j = FloatOps.mulf (x0 j) (x1 (rowIdx j)) := by
  unfold k4_pay1
  simp only [shapeCast_self]
  show (FloatOps.mulf (x0 j) (broadcastTo S8192x16 x1 broadcasts_S8192x1_S8192x16 j) : Ideal .f32) = _
  rw [broadcastTo_apply x1 broadcasts_S8192x1_S8192x16 j (rowIdx j)]
  intro a
  match a with
  | ⟨0, _⟩ => rfl
  | ⟨1, _⟩ => rfl

/-- The windows' index maps over the grid: at point t every window's block index is (t, 0). -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The features' block at point t: rows 8192 t + r of the features' array. -/
theorem iblk4_0_apply (c : Dev nD) (t : Fin cfg4.N) (x : S8192x16.Idx) (k : S851968x16.Idx)
    (hk0 : (k 0).val = t.val * 8192 + (x 0).val) (hk1 : (k 1).val = (x 1).val) :
    (iblk4 (F := Ideal) V c 0 t : Vec Ideal S8192x16 .f32) x = (V c main_v54 : S851968x16.Idx → Elt Ideal .f32) k := by
  obtain ⟨e0, e1, -, -, -, -⟩ := idx4 t
  unfold iblk4
  rw [View.read_apply]
  show V c main_v54 _ = V c main_v54 _
  congr 1
  funext a
  apply Fin.ext
  match a with
  | ⟨0, _⟩ => show win4_0.index t 0 * 8192 + 1 * (x 0).val = (k 0).val; rw [e0, hk0]; omega
  | ⟨1, _⟩ => show win4_0.index t 1 * 16 + 1 * (x 1).val = (k 1).val; rw [e1, hk1]; omega

/-- The weights' block at point t: rows 8192 t + r of the weights' column. -/
theorem iblk4_1_apply (c : Dev nD) (t : Fin cfg4.N) (x : S8192x1.Idx) (k : S851968x1.Idx)
    (hk0 : (k 0).val = t.val * 8192 + (x 0).val) (hk1 : (k 1).val = (x 1).val) :
    (iblk4 (F := Ideal) V c 1 t : Vec Ideal S8192x1 .f32) x = (V c main_v33 : S851968x1.Idx → Elt Ideal .f32) k := by
  obtain ⟨-, -, e0, e1, -, -⟩ := idx4 t
  unfold iblk4
  rw [View.read_apply]
  show V c main_v33 _ = V c main_v33 _
  congr 1
  funext a
  apply Fin.ext
  match a with
  | ⟨0, _⟩ => show win4_1.index t 0 * 8192 + 1 * (x 0).val = (k 0).val; rw [e0, hk0]; omega
  | ⟨1, _⟩ => show win4_1.index t 1 * 1 + 1 * (x 1).val = (k 1).val; rw [e1, hk1]; omega

/-- WHAT POINT t WRITES BACK is block t of the scaled rows. -/
theorem flushed4_eq (c : Dev nD) (t : Fin cfg4.N) :
    (dat4 (F := Ideal) V c).flushed 2 t
      = ((cfg4.win 2).blk t).view.read (Elt Ideal) (Val.scale16 (V c main_v54) (V c main_v33)) := by
  show (cfg4.win 2).cut (grid4.coords t) ((dat4 (F := Ideal) V c).after 2 t) = _
  rw [after4_2]
  unfold out4_2
  rw [View.canon_unit_zero zero2]
  simp only [View.ld_unit_zero (S := S8192x16) zero2, View.ld_unit_zero (S := S8192x1) zero2]
  obtain ⟨-, -, -, -, e0, e1⟩ := idx4 t
  funext j
  rw [View.read_apply]
  show k4_pay1 (F := Ideal) (iblk4 V c 0 t) (iblk4 V c 1 t) j = Val.scale16 (V c main_v54) (V c main_v33) (((cfg4.win 2).blk t).view.emb j)
  refine (pay4_apply _ _ j).trans ?_
  have h0 : (((cfg4.win 2).blk t).view.emb j 0).val = t.val * 8192 + (j 0).val := by
    show win4_2.index t 0 * 8192 + 1 * (j 0).val = _; rw [e0]; omega
  have h1 : (((cfg4.win 2).blk t).view.emb j 1).val = (j 1).val := by
    show win4_2.index t 1 * 16 + 1 * (j 1).val = _; rw [e1]; omega
  unfold Val.scale16
  show (FloatOps.mulf _ _ : Ideal .f32) = FloatOps.mulf _ _
  rw [iblk4_0_apply V c t j (((cfg4.win 2).blk t).view.emb j) h0 h1,
    iblk4_1_apply V c t (rowIdx j) (rowIdx (((cfg4.win 2).blk t).view.emb j)) h0 rfl]

/-- Every row block of the output is some point's: block q is point q's. -/
theorem idx4_onto : ∀ q : Fin 104, ∃ t : Fin cfg4.N, win4_2.index t = ![q.val, 0] :=
  (by decide +kernel : ∀ q : Fin 104, ∃ t : Fin grid4.N, win4_2.index t = ![q.val, 0])

/-- An index of the output array is in point t's block iff each coordinate is in the block's range on its axis. -/
theorem mem_blk4 (t : Fin cfg4.N) (i : S851968x16.Idx) :
    i ∈ ((cfg4.win 2).blk t).view.set ↔ ∀ a : Fin 2, win4_2.index t a * S8192x16.size a ≤ (i a).val ∧ (i a).val < win4_2.index t a * S8192x16.size a + S8192x16.size a := by
  show i ∈ ((View.whole main_v55).slice (win4_2.rect t)).set ↔ _
  rw [View.set_slice_whole, Rect.mem_set_unit]
  exact Iff.rfl

/-- The 104 row blocks tile the 851968 rows: every index is in the block of its row's quotient by 8192. -/
theorem cover4 (i : S851968x16.Idx) :
    ∃ t : Fin cfg4.N, (cfg4.win 2).flush t = true ∧ i ∈ ((cfg4.win 2).blk t).view.set := by
  have hi0 : (i 0).val < 851968 := (i 0).isLt
  have hi1 : (i 1).val < 16 := (i 1).isLt
  obtain ⟨t, ht⟩ := idx4_onto ⟨(i 0).val / 8192, by omega⟩
  have q0 : win4_2.index t (0 : Fin 2) = (i 0).val / 8192 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 8192 ≤ (i 0).val ∧ (i 0).val < win4_2.index t (0 : Fin 2) * 8192 + 8192; omega
  | ⟨1, _⟩ => show win4_2.index t (1 : Fin 2) * 16 ≤ (i 1).val ∧ (i 1).val < win4_2.index t (1 : Fin 2) * 16 + 16; omega

/-- Region 4 (the per-edge scale, 16 columns): the output array after the run, whole. -/
theorem arr4 (c : Dev nD) : (dat4 (F := Ideal) V c).arrAt 2 cfg4.N = Val.scale16 (V c main_v54) (V c main_v33) :=
  (dat4 (F := Ideal) V c).arrAt_eq_of_cover 2 (Val.scale16 (V c main_v54) (V c main_v33))
    (fun t _ => flushed4_eq V c t) cover4

end Cert.KernelIdeal.Reg

end
-- ==== Proof.RegBias.lean ====
import proofs.«179984_j48653389529562_1_alg».proof.Proof.Gen.KernelIdeal.Frame
import proofs.«179984_j48653389529562_1_alg».proof.Proof.KerVal
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx Cert.Rows
open Idealize.ShloMosaic.Pipeline (Dat Cfg Window)

variable (V : (c : Dev nD) → (b : Ref sig .tc) → Buf (Elt Ideal) ((c : Thread nD τ).loc b))

/-! ## Zero offsets -/

/-- The zero offsets of a rank-2 block are the constant zero function. -/
theorem zero2 : (![0, 0] : Fin 2 → Nat) = fun _ => 0 := funext fun a => by fin_cases a <;> rfl

/-- The zero offset of a rank-1 block is the constant zero function. -/
theorem zero1 : (![0] : Fin 1 → Nat) = fun _ => 0 := funext fun a => by fin_cases a <;> rfl

/-! ## Region 2: bias, then maximum with zero, 64 columns -/

/-- The body's payload at (r, f): the block's element plus the bias of column f, then the maximum with zero. -/
theorem pay2_apply (x0 : Vec Ideal S5000x64 .f32) (x1 : Vec Ideal S64 .f32) (j : S5000x64.Idx) :
    k2_pay1 (F := Ideal) x0 x1 j
      = FloatOps.maximumf (FloatOps.addf (x0 j) (x1 (ix1 (⟨(j 1).val, idx2_lt1 j⟩ : Fin 64)))) (FloatOps.ofBits .f32 0x00000000#32) := by
  unfold k2_pay1
  show FloatOps.maximumf (F := Ideal) (φ := .f32) (FloatOps.addf (F := Ideal) (φ := .f32) (shapeCast (α := Ideal .f32) S5000x64 x0 shapeCasts_S5000x64_S5000x64 j)
      (broadcastTo S5000x64 (shapeCast (α := Ideal .f32) S1x64 x1 shapeCasts_S64_S1x64) broadcasts_S1x64_S5000x64 j)) (FloatOps.ofBits .f32 0x00000000#32) = _
  rw [shapeCast_self,
    broadcastTo_apply _ broadcasts_S1x64_S5000x64 j (ix2 (⟨0, Nat.one_pos⟩ : Fin 1) (⟨(j 1).val, idx2_lt1 j⟩ : Fin 64))
      (fun a => by match a with | ⟨0, _⟩ => rfl | ⟨1, _⟩ => rfl),
    shapeCast_addUnit_apply]
  have hk : (fun a : Fin 1 => ix2 (⟨0, Nat.one_pos⟩ : Fin 1) (⟨(j 1).val, idx2_lt1 j⟩ : Fin 64) a.succ)
      = ix1 (⟨(j 1).val, idx2_lt1 j⟩ : Fin 64) := by
    funext a; match a with | ⟨0, _⟩ => rfl
  rw [hk]

/-- The block indices over the ten grid points: the input block moves with the output block along the rows,
    neither moves along the columns, the bias block never moves, and the row block index is below ten. -/
theorem blockIndex2 : ∀ t : Fin cfg2.N, win2_0.index t (0 : Fin 2) = win2_2.index t (0 : Fin 2)
    ∧ win2_0.index t (1 : Fin 2) = win2_2.index t (1 : Fin 2)
    ∧ win2_1.index t (0 : Fin 1) = 0
    ∧ win2_2.index t (1 : Fin 2) = 0
    ∧ win2_2.index t (0 : Fin 2) ≤ 9 :=
  (by decide +kernel : ∀ t : Fin grid2.N, _)

/-- Every one of the ten row blocks is some grid point's output block. -/
theorem blockIndex2_onto : ∀ q : Fin 10, ∃ t : Fin cfg2.N, win2_2.index t = ![q.val, 0] :=
  (by decide +kernel : ∀ q : Fin 10, ∃ t : Fin grid2.N, win2_2.index t = ![q.val, 0])

/-- What grid point t writes back is block t of the closed form of the arrays the region finds. -/
theorem writeBack2 (c : Dev nD) (t : Fin cfg2.N) :
    (dat2 (F := Ideal) V c).flushed 2 t
      = ((cfg2.win 2).blk t).view.read (Elt Ideal) (Val.biasRelu64 (V c main_v45) (V c main_arg3)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64) zero1]
  obtain ⟨e0, e1, e2, e3, e4⟩ := blockIndex2 t
  funext j
  refine (pay2_apply (iblk2 V c 0 t) (iblk2 V c 1 t) j).trans ?_
  show FloatOps.maximumf (F := Ideal) (φ := .f32)
      (FloatOps.addf (F := Ideal) (φ := .f32) (V c main_v45 (((cfg2.win 0).blk t).view.emb j))
        (V c main_arg3 (((cfg2.win 1).blk t).view.emb (ix1 (⟨(j 1).val, idx2_lt1 j⟩ : Fin 64)))))
      (FloatOps.ofBits .f32 0x00000000#32)
    = FloatOps.maximumf (F := Ideal) (φ := .f32)
      (FloatOps.addf (F := Ideal) (φ := .f32) (V c main_v45 (((cfg2.win 2).blk t).view.emb j))
        (V c main_arg3 (ix1 (⟨((((cfg2.win 2).blk t).view.emb j) 1).val, idx2_lt1 (((cfg2.win 2).blk t).view.emb j)⟩ : Fin 64))))
      (FloatOps.ofBits .f32 0x00000000#32)
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix1 (⟨(j 1).val, idx2_lt1 j⟩ : Fin 64))
      = ix1 (⟨((((cfg2.win 2).blk t).view.emb j) 1).val, idx2_lt1 (((cfg2.win 2).blk t).view.emb j)⟩ : Fin 64) := by
    funext a; apply Fin.ext
    match a with
    | ⟨0, _⟩ => show win2_1.index t (0 : Fin 1) * 64 + 1 * (j 1).val = win2_2.index t (1 : Fin 2) * 64 + 1 * (j 1).val; omega
  rw [h0, h1]

/-- An index of the array is in grid point t's output block iff each coordinate is in the block's range on its axis. -/
theorem mem_block2 (t : Fin cfg2.N) (i : S50000x64.Idx) :
    i ∈ ((cfg2.win 2).blk t).view.set
      ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten output blocks of 5000 rows tile the 50000 rows: row r is in block r / 5000. -/
theorem covered2 (i : S50000x64.Idx) :
    ∃ t : Fin cfg2.N, (cfg2.win 2).flush t = true ∧ i ∈ ((cfg2.win 2).blk t).view.set := by
  have hi0 : (i 0).val < 50000 := idx2_lt0 i
  have hi1 : (i 1).val < 64 := idx2_lt1 i
  obtain ⟨t, ht⟩ := blockIndex2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Region 2 (bias, then maximum with zero, 64 columns): the output array after the run, whole. -/
theorem arr2 (c : Dev nD) : (dat2 (F := Ideal) V c).arrAt 2 cfg2.N = Val.biasRelu64 (V c main_v45) (V c main_arg3) :=
  (dat2 (F := Ideal) V c).arrAt_eq_of_cover 2 (Val.biasRelu64 (V c main_v45) (V c main_arg3))
    (fun t _ => writeBack2 V c t) covered2

/-! ## Region 5: bias, 16 columns -/

/-- The body's payload at (r, f): the block's element plus the bias of column f. -/
theorem pay5_apply (x0 : Vec Ideal S5000x16 .f32) (x1 : Vec Ideal S16 .f32) (j : S5000x16.Idx) :
    k5_pay1 (F := Ideal) x0 x1 j = FloatOps.addf (x0 j) (x1 (ix1 (⟨(j 1).val, idx2_lt1 j⟩ : Fin 16))) := by
  unfold k5_pay1
  show FloatOps.addf (F := Ideal) (φ := .f32) (shapeCast (α := Ideal .f32) S5000x16 x0 shapeCasts_S5000x16_S5000x16 j)
      (broadcastTo S5000x16 (shapeCast (α := Ideal .f32) S1x16 x1 shapeCasts_S16_S1x16) broadcasts_S1x16_S5000x16 j) = _
  rw [shapeCast_self,
    broadcastTo_apply _ broadcasts_S1x16_S5000x16 j (ix2 (⟨0, Nat.one_pos⟩ : Fin 1) (⟨(j 1).val, idx2_lt1 j⟩ : Fin 16))
      (fun a => by match a with | ⟨0, _⟩ => rfl | ⟨1, _⟩ => rfl),
    shapeCast_addUnit_apply]
  have hk : (fun a : Fin 1 => ix2 (⟨0, Nat.one_pos⟩ : Fin 1) (⟨(j 1).val, idx2_lt1 j⟩ : Fin 16) a.succ)
      = ix1 (⟨(j 1).val, idx2_lt1 j⟩ : Fin 16) := by
    funext a; match a with | ⟨0, _⟩ => rfl
  rw [hk]

/-- The block indices over the ten grid points: the input block moves with the output block along the rows,
    neither moves along the columns, the bias block never moves, and the row block index is below ten. -/
theorem blockIndex5 : ∀ t : Fin cfg5.N, win5_0.index t (0 : Fin 2) = win5_2.index t (0 : Fin 2)
    ∧ win5_0.index t (1 : Fin 2) = win5_2.index t (1 : Fin 2)
    ∧ win5_1.index t (0 : Fin 1) = 0
    ∧ win5_2.index t (1 : Fin 2) = 0
    ∧ win5_2.index t (0 : Fin 2) ≤ 9 :=
  (by decide +kernel : ∀ t : Fin grid5.N, _)

/-- Every one of the ten row blocks is some grid point's output block. -/
theorem blockIndex5_onto : ∀ q : Fin 10, ∃ t : Fin cfg5.N, win5_2.index t = ![q.val, 0] :=
  (by decide +kernel : ∀ q : Fin 10, ∃ t : Fin grid5.N, win5_2.index t = ![q.val, 0])

/-- What grid point t writes back is block t of the closed form of the arrays the region finds. -/
theorem writeBack5 (c : Dev nD) (t : Fin cfg5.N) :
    (dat5 (F := Ideal) V c).flushed 2 t
      = ((cfg5.win 2).blk t).view.read (Elt Ideal) (Val.bias16 (V c main_v58) (V c main_arg5)) := by
  show (cfg5.win 2).cut (grid5.coords t) ((dat5 V c).after 2 t) = _
  rw [after5_2]
  unfold out5_2
  rw [View.canon_unit_zero zero2]
  simp only [View.ld_unit_zero (S := S5000x16) zero2, View.ld_unit_zero (S := S16) zero1]
  obtain ⟨e0, e1, e2, e3, e4⟩ := blockIndex5 t
  funext j
  refine (pay5_apply (iblk5 V c 0 t) (iblk5 V c 1 t) j).trans ?_
  show FloatOps.addf (F := Ideal) (φ := .f32) (V c main_v58 (((cfg5.win 0).blk t).view.emb j))
        (V c main_arg5 (((cfg5.win 1).blk t).view.emb (ix1 (⟨(j 1).val, idx2_lt1 j⟩ : Fin 16))))
    = FloatOps.addf (F := Ideal) (φ := .f32) (V c main_v58 (((cfg5.win 2).blk t).view.emb j))
        (V c main_arg5 (ix1 (⟨((((cfg5.win 2).blk t).view.emb j) 1).val, idx2_lt1 (((cfg5.win 2).blk t).view.emb j)⟩ : Fin 16)))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 16 + 1 * (j 1).val = win5_2.index t (1 : Fin 2) * 16 + 1 * (j 1).val; omega
  have h1 : ((cfg5.win 1).blk t).view.emb (ix1 (⟨(j 1).val, idx2_lt1 j⟩ : Fin 16))
      = ix1 (⟨((((cfg5.win 2).blk t).view.emb j) 1).val, idx2_lt1 (((cfg5.win 2).blk t).view.emb j)⟩ : Fin 16) := by
    funext a; apply Fin.ext
    match a with
    | ⟨0, _⟩ => show win5_1.index t (0 : Fin 1) * 16 + 1 * (j 1).val = win5_2.index t (1 : Fin 2) * 16 + 1 * (j 1).val; omega
  rw [h0, h1]

/-- An index of the array is in grid point t's output block iff each coordinate is in the block's range on its axis. -/
theorem mem_block5 (t : Fin cfg5.N) (i : S50000x16.Idx) :
    i ∈ ((cfg5.win 2).blk t).view.set
      ↔ ∀ a : Fin 2, win5_2.index t a * S5000x16.size a ≤ (i a).val ∧ (i a).val < win5_2.index t a * S5000x16.size a + S5000x16.size a := by
  show i ∈ ((View.whole main_v59).slice (win5_2.rect t)).set ↔ _
  rw [View.set_slice_whole, Rect.mem_set_unit]
  exact Iff.rfl

/-- The ten output blocks of 5000 rows tile the 50000 rows: row r is in block r / 5000. -/
theorem covered5 (i : S50000x16.Idx) :
    ∃ t : Fin cfg5.N, (cfg5.win 2).flush t = true ∧ i ∈ ((cfg5.win 2).blk t).view.set := by
  have hi0 : (i 0).val < 50000 := idx2_lt0 i
  have hi1 : (i 1).val < 16 := idx2_lt1 i
  obtain ⟨t, ht⟩ := blockIndex5_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 16 ≤ (i 1).val ∧ (i 1).val < win5_2.index t (1 : Fin 2) * 16 + 16; omega

/-- Region 5 (bias, 16 columns): the output array after the run, whole. -/
theorem arr5 (c : Dev nD) : (dat5 (F := Ideal) V c).arrAt 2 cfg5.N = Val.bias16 (V c main_v58) (V c main_arg5) :=
  (dat5 (F := Ideal) V c).arrAt_eq_of_cover 2 (Val.bias16 (V c main_v58) (V c main_arg5))
    (fun t _ => writeBack5 V c t) covered5

end Cert.KernelIdeal.Reg

end
-- ==== Proof.KerChain.lean ====
/-
  The kernel program's result buffer, read back through the run.

  The run is a fold through eleven boundaries: a stretch of host operations, then a kernel region, and so on. A
  host stretch changes only the buffers its operations write; a region changes only its output array, which ends
  at the region's closed form of its two input arrays as the region found them. Reading the result buffer back
  boundary by boundary therefore gives the value function of KerVal.lean at the launch memory's arguments: each
  layer's product, gather, scale, scatter-add and bias in turn, the padded edge list and weights carried unchanged
  from the first host stretch to every later reader.
-/
import proofs.«179984_j48653389529562_1_alg».proof.Proof.Gen.KernelIdeal.Frame
import proofs.«179984_j48653389529562_1_alg».proof.Proof.KerVal
import proofs.«179984_j48653389529562_1_alg».proof.Proof.KerStart
import proofs.«179984_j48653389529562_1_alg».proof.Proof.KerStartW
import proofs.«179984_j48653389529562_1_alg».proof.Proof.RegMatmul
import proofs.«179984_j48653389529562_1_alg».proof.Proof.RegScale
import proofs.«179984_j48653389529562_1_alg».proof.Proof.RegBias
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Region 0: the first dense product -/

theorem W2_v34 (c : Dev nD) :
    W2 m ρ c (Proc.devRef .tc main_v34)
      = Val.mm64 (m ((c : Thread nD τ).loc main_arg0)) (m ((c : Thread nD τ).loc main_arg2)) := by
  refine (W2_arr m ρ c 2).trans ?_
  refine (Reg.arr0 (V1 m ρ) c).trans ?_
  exact congrArg₂ Val.mm64 (W1_arg0 m ρ c) (W1_arg2 m ρ c)

theorem W2_v28 (c : Dev nD) :
    W2 m ρ c (Proc.devRef .tc main_v28) = Val.padI (Val.srcOf (m ((c : Thread nD τ).loc main_arg1))) := by
  refine (W2_of_ne m ρ c _ (by decide)).trans ?_
  exact W1_v28 m ρ c

theorem W2_v30 (c : Dev nD) :
    W2 m ρ c (Proc.devRef .tc main_v30) = Val.padI (Val.dstOf (m ((c : Thread nD τ).loc main_arg1))) := by
  refine (W2_of_ne m ρ c _ (by decide)).trans ?_
  exact W1_v30 m ρ c

theorem W2_v33 (c : Dev nD) :
    W2 m ρ c (Proc.devRef .tc main_v33) = Val.normCol (m ((c : Thread nD τ).loc main_arg1)) := by
  refine (W2_of_ne m ρ c _ (by decide)).trans ?_
  exact W1_v33 m ρ c

/-! ## The gather at the sources, then region 1: the first scale -/

theorem W3_v41 (c : Dev nD) :
    W3 m ρ c (Proc.devRef .tc main_v41)
      = Host.gather gather_S50000x64_S851968x1_S851968x64_1_0_n_n_0_1_164
          (Val.mm64 (m ((c : Thread nD τ).loc main_arg0)) (m ((c : Thread nD τ).loc main_arg2)))
          (Val.colP (Val.wrapIdxP (Val.padI (Val.srcOf (m ((c : Thread nD τ).loc main_arg1)))))) := by
  show StableHlo.after hostOps1 (W2 m ρ c) (Proc.devRef .tc main_v41) = _
  dsimp only [hostOps1]
  after_results
  rw [W2_v34 m ρ c, W2_v28 m ρ c]
  rfl

theorem W3_v33 (c : Dev nD) :
    W3 m ρ c (Proc.devRef .tc main_v33) = Val.normCol (m ((c : Thread nD τ).loc main_arg1)) := by
  host_back hostOps1
  exact W2_v33 m ρ c

theorem W3_v30 (c : Dev nD) :
    W3 m ρ c (Proc.devRef .tc main_v30) = Val.padI (Val.dstOf (m ((c : Thread nD τ).loc main_arg1))) := by
  host_back hostOps1
  exact W2_v30 m ρ c

theorem W3_v28 (c : Dev nD) :
    W3 m ρ c (Proc.devRef .tc main_v28) = Val.padI (Val.srcOf (m ((c : Thread nD τ).loc main_arg1))) := by
  host_back hostOps1
  exact W2_v28 m ρ c

/-- The scaled messages of the first layer. -/
def msg1 (c : Dev nD) : FVec Ideal S851968x64 .f32 :=
  Val.scale64
    (Host.gather gather_S50000x64_S851968x1_S851968x64_1_0_n_n_0_1_164
      (Val.mm64 (m ((c : Thread nD τ).loc main_arg0)) (m ((c : Thread nD τ).loc main_arg2)))
      (Val.colP (Val.wrapIdxP (Val.padI (Val.srcOf (m ((c : Thread nD τ).loc main_arg1)))))))
    (Val.normCol (m ((c : Thread nD τ).loc main_arg1)))

theorem W4_v42 (c : Dev nD) : W4 m ρ c (Proc.devRef .tc main_v42) = msg1 m c := by
  refine (W4_arr m ρ c 2).trans ?_
  refine (Reg.arr1 (V3 m ρ) c).trans ?_
  exact congrArg₂ Val.scale64 (W3_v41 m ρ c) (W3_v33 m ρ c)

theorem W4_v30 (c : Dev nD) :
    W4 m ρ c (Proc.devRef .tc main_v30) = Val.padI (Val.dstOf (m ((c : Thread nD τ).loc main_arg1))) := by
  refine (W4_of_ne m ρ c _ (by decide)).trans ?_
  exact W3_v30 m ρ c

theorem W4_v28 (c : Dev nD) :
    W4 m ρ c (Proc.devRef .tc main_v28) = Val.padI (Val.srcOf (m ((c : Thread nD τ).loc main_arg1))) := by
  refine (W4_of_ne m ρ c _ (by decide)).trans ?_
  exact W3_v28 m ρ c

/-- The weights' column is an INPUT array of region 1: the region leaves it as it found it. -/
theorem W4_v33 (c : Dev nD) :
    W4 m ρ c (Proc.devRef .tc main_v33) = Val.normCol (m ((c : Thread nD τ).loc main_arg1)) := by
  refine (W4_arr m ρ c 1).trans ?_
  refine (((dat1 (V3 m ρ) c).arrAt_in 1 rfl _).trans (A_eq1 (V3 m ρ) c 1)).trans ?_
  exact W3_v33 m ρ c

/-! ## The sum into the destinations, then regions 2 and 3: bias with maximum, second dense product -/

/-- The first layer's result. -/
def out1 (c : Dev nD) : FVec Ideal S50000x64 .f32 :=
  Val.layer1 (m ((c : Thread nD τ).loc main_arg0)) (m ((c : Thread nD τ).loc main_arg2)) (m ((c : Thread nD τ).loc main_arg3))
    (Val.padI (Val.srcOf (m ((c : Thread nD τ).loc main_arg1)))) (Val.padI (Val.dstOf (m ((c : Thread nD τ).loc main_arg1))))
    (Val.normCol (m ((c : Thread nD τ).loc main_arg1)))

theorem W5_v45 (c : Dev nD) :
    W5 m ρ c (Proc.devRef .tc main_v45)
      = Host.scatterAdd scatter_S50000x64_S851968x1_S851968x64_1_0_0_1
          (broadcastInDim S50000x64 ![] bcast_S_S50000x64 (constant S_ .f32 0x00000000#32))
          (Val.colP (Val.padI (Val.dstOf (m ((c : Thread nD τ).loc main_arg1))))) (msg1 m c) := by
  show StableHlo.after hostOps2 (W4 m ρ c) (Proc.devRef .tc main_v45) = _
  dsimp only [hostOps2]
  after_results
  rw [W4_v42 m ρ c, W4_v30 m ρ c]
  rfl

theorem W5_arg3 (c : Dev nD) : W5 m ρ c (Proc.devRef .tc main_arg3) = m ((c : Thread nD τ).loc main_arg3) := by
  host_back hostOps2
  refine (W4_of_ne m ρ c _ (by decide)).trans ?_
  host_back hostOps1
  refine (W2_of_ne m ρ c _ (by decide)).trans ?_
  exact W1_arg3 m ρ c

theorem W5_arg4 (c : Dev nD) : W5 m ρ c (Proc.devRef .tc main_arg4) = m ((c : Thread nD τ).loc main_arg4) := by
  host_back hostOps2
  refine (W4_of_ne m ρ c _ (by decide)).trans ?_
  host_back hostOps1
  refine (W2_of_ne m ρ c _ (by decide)).trans ?_
  exact W1_arg4 m ρ c

theorem W5_arg5 (c : Dev nD) : W5 m ρ c (Proc.devRef .tc main_arg5) = m ((c : Thread nD τ).loc main_arg5) := by
  host_back hostOps2
  refine (W4_of_ne m ρ c _ (by decide)).trans ?_
  host_back hostOps1
  refine (W2_of_ne m ρ c _ (by decide)).trans ?_
  exact W1_arg5 m ρ c

theorem W5_v28 (c : Dev nD) :
    W5 m ρ c (Proc.devRef .tc main_v28) = Val.padI (Val.srcOf (m ((c : Thread nD τ).loc main_arg1))) := by
  host_back hostOps2
  exact W4_v28 m ρ c

theorem W5_v30 (c : Dev nD) :
    W5 m ρ c (Proc.devRef .tc main_v30) = Val.padI (Val.dstOf (m ((c : Thread nD τ).loc main_arg1))) := by
  host_back hostOps2
  exact W4_v30 m ρ c

theorem W5_v33 (c : Dev nD) :
    W5 m ρ c (Proc.devRef .tc main_v33) = Val.normCol (m ((c : Thread nD τ).loc main_arg1)) := by
  host_back hostOps2
  exact W4_v33 m ρ c

theorem W6_v46 (c : Dev nD) : W6 m ρ c (Proc.devRef .tc main_v46) = out1 m c := by
  refine (W6_arr m ρ c 2).trans ?_
  refine (Reg.arr2 (V5 m ρ) c).trans ?_
  exact congrArg₂ Val.biasRelu64 (W5_v45 m ρ c) (W5_arg3 m ρ c)

theorem W6_arg4 (c : Dev nD) : W6 m ρ c (Proc.devRef .tc main_arg4) = m ((c : Thread nD τ).loc main_arg4) := by
  refine (W6_of_ne m ρ c _ (by decide)).trans ?_
  exact W5_arg4 m ρ c

/-- The second layer's dense product. -/
theorem W7_v47 (c : Dev nD) :
    W7 m ρ c (Proc.devRef .tc main_v47) = Val.mm16 (out1 m c) (m ((c : Thread nD τ).loc main_arg4)) := by
  refine (W7_arr m ρ c 2).trans ?_
  refine (Reg.arr3 (V6 m ρ) c).trans ?_
  exact congrArg₂ Val.mm16 (W6_v46 m ρ c) (W6_arg4 m ρ c)

theorem W7_v28 (c : Dev nD) :
    W7 m ρ c (Proc.devRef .tc main_v28) = Val.padI (Val.srcOf (m ((c : Thread nD τ).loc main_arg1))) := by
  refine (W7_of_ne m ρ c _ (by decide)).trans ?_
  refine (W6_of_ne m ρ c _ (by decide)).trans ?_
  exact W5_v28 m ρ c

theorem W7_v30 (c : Dev nD) :
    W7 m ρ c (Proc.devRef .tc main_v30) = Val.padI (Val.dstOf (m ((c : Thread nD τ).loc main_arg1))) := by
  refine (W7_of_ne m ρ c _ (by decide)).trans ?_
  refine (W6_of_ne m ρ c _ (by decide)).trans ?_
  exact W5_v30 m ρ c

theorem W7_v33 (c : Dev nD) :
    W7 m ρ c (Proc.devRef .tc main_v33) = Val.normCol (m ((c : Thread nD τ).loc main_arg1)) := by
  refine (W7_of_ne m ρ c _ (by decide)).trans ?_
  refine (W6_of_ne m ρ c _ (by decide)).trans ?_
  exact W5_v33 m ρ c

theorem W7_arg5 (c : Dev nD) : W7 m ρ c (Proc.devRef .tc main_arg5) = m ((c : Thread nD τ).loc main_arg5) := by
  refine (W7_of_ne m ρ c _ (by decide)).trans ?_
  refine (W6_of_ne m ρ c _ (by decide)).trans ?_
  exact W5_arg5 m ρ c

/-! ## The second layer's gather, region 4 (scale), scatter-add, region 5 (bias) -/

/-- The scaled messages of the second layer. -/
def msg2 (c : Dev nD) : FVec Ideal S851968x16 .f32 :=
  Val.scale16
    (Host.gather gather_S50000x16_S851968x1_S851968x16_1_0_n_n_0_1_116
      (Val.mm16 (out1 m c) (m ((c : Thread nD τ).loc main_arg4)))
      (Val.colP (Val.wrapIdxP (Val.padI (Val.srcOf (m ((c : Thread nD τ).loc main_arg1)))))))
    (Val.normCol (m ((c : Thread nD τ).loc main_arg1)))

theorem W8_v54 (c : Dev nD) :
    W8 m ρ c (Proc.devRef .tc main_v54)
      = Host.gather gather_S50000x16_S851968x1_S851968x16_1_0_n_n_0_1_116
          (Val.mm16 (out1 m c) (m ((c : Thread nD τ).loc main_arg4)))
          (Val.colP (Val.wrapIdxP (Val.padI (Val.srcOf (m ((c : Thread nD τ).loc main_arg1)))))) := by
  show StableHlo.after hostOps4 (W7 m ρ c) (Proc.devRef .tc main_v54) = _
  dsimp only [hostOps4]
  after_results
  rw [W7_v47 m ρ c, W7_v28 m ρ c]
  rfl

theorem W8_v33 (c : Dev nD) :
    W8 m ρ c (Proc.devRef .tc main_v33) = Val.normCol (m ((c : Thread nD τ).loc main_arg1)) := by
  host_back hostOps4
  exact W7_v33 m ρ c

theorem W8_v30 (c : Dev nD) :
    W8 m ρ c (Proc.devRef .tc main_v30) = Val.padI (Val.dstOf (m ((c : Thread nD τ).loc main_arg1))) := by
  host_back hostOps4
  exact W7_v30 m ρ c

theorem W8_arg5 (c : Dev nD) : W8 m ρ c (Proc.devRef .tc main_arg5) = m ((c : Thread nD τ).loc main_arg5) := by
  host_back hostOps4
  exact W7_arg5 m ρ c

theorem W9_v55 (c : Dev nD) : W9 m ρ c (Proc.devRef .tc main_v55) = msg2 m c := by
  refine (W9_arr m ρ c 2).trans ?_
  refine (Reg.arr4 (V8 m ρ) c).trans ?_
  exact congrArg₂ Val.scale16 (W8_v54 m ρ c) (W8_v33 m ρ c)

theorem W9_v30 (c : Dev nD) :
    W9 m ρ c (Proc.devRef .tc main_v30) = Val.padI (Val.dstOf (m ((c : Thread nD τ).loc main_arg1))) := by
  refine (W9_of_ne m ρ c _ (by decide)).trans ?_
  exact W8_v30 m ρ c

theorem W9_arg5 (c : Dev nD) : W9 m ρ c (Proc.devRef .tc main_arg5) = m ((c : Thread nD τ).loc main_arg5) := by
  refine (W9_of_ne m ρ c _ (by decide)).trans ?_
  exact W8_arg5 m ρ c

theorem W10_v58 (c : Dev nD) :
    W10 m ρ c (Proc.devRef .tc main_v58)
      = Host.scatterAdd scatter_S50000x16_S851968x1_S851968x16_1_0_0_1
          (broadcastInDim S50000x16 ![] bcast_S_S50000x16 (constant S_ .f32 0x00000000#32))
          (Val.colP (Val.padI (Val.dstOf (m ((c : Thread nD τ).loc main_arg1))))) (msg2 m c) := by
  show StableHlo.after hostOps5 (W9 m ρ c) (Proc.devRef .tc main_v58) = _
  dsimp only [hostOps5]
  after_results
  rw [W9_v55 m ρ c, W9_v30 m ρ c]
  rfl

theorem W10_arg5 (c : Dev nD) : W10 m ρ c (Proc.devRef .tc main_arg5) = m ((c : Thread nD τ).loc main_arg5) := by
  host_back hostOps5
  exact W9_arg5 m ρ c

/-- THE RESULT BUFFER at the last boundary of the run is the program's value function of the launch memory's arguments. -/
theorem W11_v59 (c : Dev nD) :
    W11 (F := Ideal) m ρ c (Proc.devRef .tc main_v59)
      = Val.kerVal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (W11_arr m ρ c 2).trans ?_
  refine (Reg.arr5 (V10 m ρ) c).trans ?_
  refine (congrArg₂ Val.bias16 (W10_v58 m ρ c) (W10_arg5 m ρ c)).trans ?_
  rfl

end Cert.KernelIdeal.Chain

end
-- ==== Proof.RefSide.lean ====
/-
  The reference's run, its result stated at the last stage of the reference read one operation at a time.
-/
import proofs.«179984_j48653389529562_1_alg».proof.Proof.Gen.ReferenceIdeal.Run
import proofs.«179984_j48653389529562_1_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem

/-- Every weakly fair execution of the reference ends with its result at the last stage's function of the launch
    memory's arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
          = Cert.ReferenceIdeal.Read.val_main_v61 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Cert.ReferenceIdeal.Read.val_main_v61_eq m c), (h c).2⟩)
    (Cert.ReferenceIdeal.Value.run (F := Ideal) m ρ)

end Cert.ReferenceIdeal.RefValue

end
-- ==== Proof.LibPad.lean ====
/-
  A scatter-add of E' rows whose first E rows are another scatter-add's rows and whose other rows are zero.
-/
import proofs.«179984_j48653389529562_1_alg».proof.Proof.LibRows

noncomputable section

open scoped BigOperators

namespace Cert.Rows

open Idealize.ShloMosaic Idealize.ShloMosaic.ValueIdx

/-- The embedding of the update indices [E, n] into the update indices [E', n], E ≤ E': (e, f) goes to (e, f). -/
def padEmb {E E' n : Nat} (hE : E ≤ E') (j : (⟨2, ![E, n]⟩ : Shape).Idx) : (⟨2, ![E', n]⟩ : Shape).Idx :=
  ix2 (Fin.castLE hE (⟨(j 0).val, idx2_lt0 j⟩ : Fin E)) (⟨(j 1).val, idx2_lt1 j⟩ : Fin n)

/-- The embedding keeps the first coordinate's value. -/
theorem padEmb_val0 {E E' n : Nat} (hE : E ≤ E') (j : (⟨2, ![E, n]⟩ : Shape).Idx) :
    ((padEmb hE j) 0).val = (j 0).val := rfl

/-- The embedding keeps the second coordinate's value. -/
theorem padEmb_val1 {E E' n : Nat} (hE : E ≤ E') (j : (⟨2, ![E, n]⟩ : Shape).Idx) :
    ((padEmb hE j) 1).val = (j 1).val := rfl

/-- The embedding is injective: an index is its two coordinates' values. -/
theorem padEmb_injective {E E' n : Nat} (hE : E ≤ E') (j₁ j₂ : (⟨2, ![E, n]⟩ : Shape).Idx)
    (h : padEmb hE j₁ = padEmb hE j₂) : j₁ = j₂ := by
  have h0 : ((padEmb hE j₁) 0).val = ((padEmb hE j₂) 0).val := by rw [h]
  have h1 : ((padEmb hE j₁) 1).val = ((padEmb hE j₂) 1).val := by rw [h]
  rw [padEmb_val0, padEmb_val0] at h0
  rw [padEmb_val1, padEmb_val1] at h1
  funext a
  refine Fin.ext ?_
  match a with
  | ⟨0, _⟩ => exact h0
  | ⟨1, _⟩ => exact h1

/-- An update index is the pair of its coordinates, each rebuilt from its value. -/
theorem eq_ix2_val {E n : Nat} (j : (⟨2, ![E, n]⟩ : Shape).Idx) :
    j = ix2 (⟨(j 0).val, idx2_lt0 j⟩ : Fin E) (⟨(j 1).val, idx2_lt1 j⟩ : Fin n) := by
  funext a
  refine Fin.ext ?_
  match a with
  | ⟨0, _⟩ => rfl
  | ⟨1, _⟩ => rfl

/-- The start-indices index of row e is [e, 0]. -/
theorem rowIdx_eq_ix2 {E n : Nat} (j : (⟨2, ![E, n]⟩ : Shape).Idx) :
    rowIdx j = ix2 (⟨(j 0).val, idx2_lt0 j⟩ : Fin E) (0 : Fin 1) := by
  funext a
  refine Fin.ext ?_
  match a with
  | ⟨0, _⟩ => rfl
  | ⟨1, _⟩ => rfl

/-- The start-indices index of the embedded row e is [e, 0] in the larger index array. -/
theorem rowIdx_padEmb {E E' n : Nat} (hE : E ≤ E') (j : (⟨2, ![E, n]⟩ : Shape).Idx) :
    rowIdx (padEmb hE j) = ix2 (Fin.castLE hE (⟨(j 0).val, idx2_lt0 j⟩ : Fin E)) (0 : Fin 1) := by
  funext a
  refine Fin.ext ?_
  match a with
  | ⟨0, _⟩ => rfl
  | ⟨1, _⟩ => rfl

/-- A large update index whose first coordinate is below E is the embedding of the small index with the same
    coordinates. -/
theorem padEmb_of_lt {E E' n : Nat} (hE : E ≤ E') (b : (⟨2, ![E', n]⟩ : Shape).Idx) (hb : (b 0).val < E) :
    padEmb hE (ix2 (⟨(b 0).val, hb⟩ : Fin E) (⟨(b 1).val, idx2_lt1 b⟩ : Fin n)) = b := by
  funext a
  refine Fin.ext ?_
  match a with
  | ⟨0, _⟩ => rfl
  | ⟨1, _⟩ => rfl

/-- Over the extended reals, a row scatter-add over E' ≥ E updates whose indices and updates agree with a scatter-add over
    E updates on the first E rows, and whose updates are zero on the other rows, is that smaller scatter-add: a zero
    update adds nothing wherever its index sends it. -/
theorem rowScatterAdd_pad {N E E' n w : Nat} (hE : E ≤ E')
    (wf : ScatterDims.WF ⟨2, ![N, n]⟩ ⟨2, ![E, 1]⟩ ⟨2, ![E, n]⟩ [1] [0] [0] 1)
    (wf' : ScatterDims.WF ⟨2, ![N, n]⟩ ⟨2, ![E', 1]⟩ ⟨2, ![E', n]⟩ [1] [0] [0] 1)
    (x : (⟨2, ![N, n]⟩ : Shape).Idx → EReal)
    (idx : IVec ⟨2, ![E, 1]⟩ w) (idx' : IVec ⟨2, ![E', 1]⟩ w)
    (upd : (⟨2, ![E, n]⟩ : Shape).Idx → EReal) (upd' : (⟨2, ![E', n]⟩ : Shape).Idx → EReal)
    (hidx : ∀ e : Fin E, idx' (ix2 (Fin.castLE hE e) (0 : Fin 1)) = idx (ix2 e (0 : Fin 1)))
    (hupd : ∀ (e : Fin E) (f : Fin n), upd' (ix2 (Fin.castLE hE e) f) = upd (ix2 e f))
    (hzero : ∀ (e' : Fin E') (f : Fin n), E ≤ e'.val → upd' (ix2 e' f) = 0) :
    Ideal.hostScatterAdd (rowScatterDims N E' n wf') x idx' upd'
      = Ideal.hostScatterAdd (rowScatterDims N E n wf) x idx upd := by
  -- the index and the update of an embedded row are the small scatter-add's
  have hI : ∀ a : (⟨2, ![E, n]⟩ : Shape).Idx, idx' (rowIdx (padEmb hE a)) = idx (rowIdx a) := by
    intro a
    rw [rowIdx_padEmb, hidx, ← rowIdx_eq_ix2]
  have hU : ∀ a : (⟨2, ![E, n]⟩ : Shape).Idx, upd' (padEmb hE a) = upd a :=
    fun a => (hupd ⟨(a 0).val, idx2_lt0 a⟩ ⟨(a 1).val, idx2_lt1 a⟩).trans (congrArg upd (eq_ix2_val a).symm)
  funext i
  unfold Ideal.hostScatterAdd
  congr 1
  symm
  -- the rows that land on i in the small scatter-add embed into those of the large one; what the embedding
  -- misses has first coordinate at least E, where the update is zero
  refine Finset.sum_bij_ne_zero (fun a _ _ => padEmb hE a) ?_ ?_ ?_ ?_
  · intro a h₁ _
    rw [Finset.mem_filter] at h₁ ⊢
    refine ⟨Finset.mem_univ _, ?_⟩
    have h := (rowScatter_resultIdx_iff wf a idx i).mp h₁.2
    refine (rowScatter_resultIdx_iff wf' (padEmb hE a) idx' i).mpr ⟨?_, ?_⟩
    · rw [hI]; exact h.1
    · rw [padEmb_val1]; exact h.2
  · intro a₁ _ _ a₂ _ _ h
    exact padEmb_injective hE a₁ a₂ h
  · intro b hb hne
    rw [Finset.mem_filter] at hb
    have hb' := (rowScatter_resultIdx_iff wf' b idx' i).mp hb.2
    have hlt : (b 0).val < E := by
      by_contra hge
      apply hne
      have hz := hzero ⟨(b 0).val, idx2_lt0 b⟩ ⟨(b 1).val, idx2_lt1 b⟩ (Nat.le_of_not_lt hge)
      exact (congrArg upd' (eq_ix2_val b)).trans hz
    have hemb := padEmb_of_lt hE b hlt
    refine ⟨ix2 (⟨(b 0).val, hlt⟩ : Fin E) (⟨(b 1).val, idx2_lt1 b⟩ : Fin n), ?_, ?_, hemb⟩
    · rw [Finset.mem_filter]
      refine ⟨Finset.mem_univ _, ?_⟩
      refine (rowScatter_resultIdx_iff wf _ idx i).mpr ⟨?_, ?_⟩
      · rw [← hI, hemb]; exact hb'.1
      · exact hb'.2
    · rw [← hU, hemb]; exact hne
  · intro a _ _
    exact (hU a).symm

end Cert.Rows

end
-- ==== Proof.Bridge64.lean ====
import proofs.«179984_j48653389529562_1_alg».proof.Proof.KerVal
import proofs.«179984_j48653389529562_1_alg».proof.Proof.LibRows
import proofs.«179984_j48653389529562_1_alg».proof.Proof.LibPad
import proofs.«179984_j48653389529562_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open scoped BigOperators

namespace Cert.Bridge64

open Idealize.ShloMosaic Idealize.ShloMosaic.ValueIdx Cert.Rows

/-! ## The two programs' edge lists and dimension numbers are the same texts -/

/-- The sources: the kernel program's list is the reference's. -/
theorem src_eq (ei : IVec Cert.KernelIdeal.S2x800000 32) :
    Cert.KernelIdeal.Val.srcOf ei = Cert.ReferenceIdeal.Read.val_main_v3 (F := Ideal) ei := by
  unfold Cert.KernelIdeal.Val.srcOf Cert.ReferenceIdeal.Read.val_main_v3 Cert.ReferenceIdeal.Read.val_main_v2 Cert.ReferenceIdeal.Read.val_main_v1 Cert.ReferenceIdeal.Read.val_main_v0
  rfl

/-- The destinations: the kernel program's list is the reference's. -/
theorem dst_eq (ei : IVec Cert.KernelIdeal.S2x800000 32) :
    Cert.KernelIdeal.Val.dstOf ei = Cert.ReferenceIdeal.Read.val_main_v6 (F := Ideal) ei := by
  unfold Cert.KernelIdeal.Val.dstOf Cert.ReferenceIdeal.Read.val_main_v6 Cert.ReferenceIdeal.Read.val_main_v5 Cert.ReferenceIdeal.Read.val_main_v4 Cert.ReferenceIdeal.Read.val_main_v0
  rfl

/-- The weights: the kernel program's list is the reference's. -/
theorem norm_eq (ei : IVec Cert.KernelIdeal.S2x800000 32) :
    Cert.KernelIdeal.Val.normOf ei = Cert.ReferenceIdeal.Read.val_main_v26 (F := Ideal) ei := by
  unfold Cert.KernelIdeal.Val.normOf Cert.KernelIdeal.Val.degOf Cert.KernelIdeal.Val.wrapIdx Cert.KernelIdeal.Val.srcOf Cert.KernelIdeal.Val.dstOf
    Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21
    Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_1 Cert.ReferenceIdeal.Read.val_main_c_2 Cert.ReferenceIdeal.Read.val_main_c_3 Cert.ReferenceIdeal.Read.val_main_cst Cert.ReferenceIdeal.Read.val_main_cst_0
  rfl

/-- The kernel program's scatter is the row scatter of 851968 rows. -/
theorem kscat_eq : Cert.KernelIdeal.scatter_S50000x64_S851968x1_S851968x64_1_0_0_1
    = rowScatterDims 50000 851968 64 Cert.KernelIdeal.Facts₀.scatter_S50000x64_S851968x1_S851968x64_1_0_0_1_wf := rfl

/-- The reference's scatter is the row scatter of 850000 rows. -/
theorem rscat_eq : Cert.ReferenceIdeal.scatter_S50000x64_S850000x1_S850000x64_1_0_0_1
    = rowScatterDims 50000 850000 64 Cert.ReferenceIdeal.Facts₀.scatter_S50000x64_S850000x1_S850000x64_1_0_0_1_wf := rfl

/-- The kernel program's gather is the row gather of 851968 rows. -/
theorem kgath_eq : Cert.KernelIdeal.gather_S50000x64_S851968x1_S851968x64_1_0_n_n_0_1_164
    = rowGatherDims 50000 851968 64 Cert.KernelIdeal.Facts₀.gather_S50000x64_S851968x1_S851968x64_1_0_n_n_0_1_164_wf := rfl

/-- The reference's gather is the row gather of 850000 rows. -/
theorem rgath_eq : Cert.ReferenceIdeal.gather_S50000x64_S850000x1_S850000x64_1_0_n_n_0_1_164
    = rowGatherDims 50000 850000 64 Cert.ReferenceIdeal.Facts₀.gather_S50000x64_S850000x1_S850000x64_1_0_n_n_0_1_164_wf := rfl

/-! ## Indices -/

/-- Two rank-1 indices with the same coordinate are equal. -/
theorem idx1_ext {n : Nat} (p q : (⟨1, ![n]⟩ : Shape).Idx) (h : (p 0).val = (q 0).val) : p = q := by
  funext a
  refine Fin.ext ?_
  match a with
  | ⟨0, _⟩ => exact h

/-- Two rank-2 indices with the same two coordinates are equal. -/
theorem idx2_ext {n0 n1 : Nat} (p q : (⟨2, ![n0, n1]⟩ : Shape).Idx) (h0 : (p 0).val = (q 0).val)
    (h1 : (p 1).val = (q 1).val) : p = q := by
  funext a
  refine Fin.ext ?_
  match a with
  | ⟨0, _⟩ => exact h0
  | ⟨1, _⟩ => exact h1

/-! ## The padded lists read at an entry -/

/-- An entry of the padded index list below 850000 is the list's entry. -/
theorem padI_lt (v : IVec ⟨1, ![850000]⟩ 32) (j : Fin 851968) (h : j.val < 850000) :
    Cert.KernelIdeal.Val.padI v (ix1 j) = v (ix1 ⟨j.val, h⟩) := by
  unfold Cert.KernelIdeal.Val.padI
  exact concatenate_pair_apply_left 0 v _ _ (ix1 j) rfl (ix1 ⟨j.val, h⟩) (fun b => match b with | ⟨0, _⟩ => rfl)

/-- An entry of the padded weights below 850000 is the weight. -/
theorem padF_lt (v : FVec Ideal ⟨1, ![850000]⟩ .f32) (j : Fin 851968) (h : j.val < 850000) :
    Cert.KernelIdeal.Val.padF v (ix1 j) = v (ix1 ⟨j.val, h⟩) := by
  unfold Cert.KernelIdeal.Val.padF
  exact concatenate_pair_apply_left 0 v _ _ (ix1 j) rfl (ix1 ⟨j.val, h⟩) (fun b => match b with | ⟨0, _⟩ => rfl)

/-- An entry of the padded weights from 850000 on is zero. -/
theorem padF_ge (v : FVec Ideal ⟨1, ![850000]⟩ .f32) (j : Fin 851968) (h : 850000 ≤ j.val) :
    Cert.KernelIdeal.Val.padF v (ix1 j) = 0 := by
  unfold Cert.KernelIdeal.Val.padF
  rw [concatenate_pair_apply_right (s₂ := ⟨1, ![1968]⟩) 0 v _ _ (ix1 j) rfl rfl (ix1 (⟨j.val - 850000, by omega⟩ : Fin 1968))
    (fun b hb => match b with | ⟨0, _⟩ => absurd rfl hb)
    (by show j.val - 850000 + 850000 = j.val; omega)]
  exact Ideal.ofBits_zero_f32

/-- The weights' column read at a row is the padded list's entry. -/
theorem col_padF (v : FVec Ideal ⟨1, ![850000]⟩ .f32) (j : (⟨2, ![851968, 1]⟩ : Shape).Idx) :
    shapeCast Cert.KernelIdeal.S851968x1 (Cert.KernelIdeal.Val.padF v) Cert.KernelIdeal.Gen.shapeCasts_S851968_S851968x1 j
      = Cert.KernelIdeal.Val.padF v (ix1 (⟨(j 0).val, idx2_lt0 j⟩ : Fin 851968)) := by
  refine shapeCast_apply _ _ j _ ?_
  rewrite [Shape.rowMajor_val_two, Shape.rowMajor_val_one]
  have h1 : (j 1).val < 1 := idx2_lt1 j
  show (j 0).val = (j 0).val * 1 + (j 1).val
  omega

/-- An index list's column read at a row is the list's entry. -/
theorem colP_apply (v : IVec ⟨1, ![851968]⟩ 32) (j : (⟨2, ![851968, 1]⟩ : Shape).Idx) :
    Cert.KernelIdeal.Val.colP v j = v (ix1 (⟨(j 0).val, idx2_lt0 j⟩ : Fin 851968)) := by
  unfold Cert.KernelIdeal.Val.colP
  exact broadcastInDim_apply _ _ v j _ (fun a => match a with
    | ⟨0, _⟩ => by show (j 0).val = if (851968 : Nat) = 1 then 0 else (j 0).val; rw [if_neg (by decide)])

/-- The wrap of a negative index, on one entry. -/
def wrapS (a : BitVec 32) : BitVec 32 :=
  Scalar.select (IntOp.cmpi .slt a 0#32) (IntOp.addi a 50000#32) a

/-- The padded list's wrap acts entry by entry. -/
theorem wrapIdxP_apply (v : IVec ⟨1, ![851968]⟩ 32) (j : (⟨1, ![851968]⟩ : Shape).Idx) :
    Cert.KernelIdeal.Val.wrapIdxP v j = wrapS (v j) := rfl

/-! ## The dense product and the gathered rows -/

/-- The kernel's dense product is the reference's. -/
theorem mm64_eq (x : FVec Ideal ⟨2, ![50000, 64]⟩ .f32) (W : FVec Ideal ⟨2, ![64, 64]⟩ .f32) :
    Cert.KernelIdeal.Val.mm64 x W = Cert.ReferenceIdeal.Read.val_main_v27 (F := Ideal) x W := by
  funext i
  rw [Cert.ReferenceIdeal.Read.val_main_v27_apply]
  show (∑ k : Fin 64, x (ix2 (⟨(i 0).val, idx2_lt0 i⟩ : Fin 50000) k) * W (ix2 k (⟨(i 1).val, idx2_lt1 i⟩ : Fin 64))) = _
  refine Finset.sum_congr rfl fun k _ => ?_
  rw [idx2_ext (Cert.ReferenceIdeal.Read.lidx_main_v27 i k) (ix2 (⟨(i 0).val, idx2_lt0 i⟩ : Fin 50000) k) rfl rfl,
    idx2_ext (Cert.ReferenceIdeal.Read.ridx_main_v27 i k) (ix2 k (⟨(i 1).val, idx2_lt1 i⟩ : Fin 64)) rfl rfl]

/-- A row index read signed and clamped into [0, 49999]. -/
def clampRow (a : BitVec 32) : Fin 50000 := ⟨min a.toInt.toNat (50000 - 1), by omega⟩

/-- A row gather of a [50000, 64] table read at (e, f): the table's row at the clamped index of e, column f. -/
theorem rowGather_clamp {E : Nat}
    (wf : GatherDims.WF ⟨2, ![50000, 64]⟩ ⟨2, ![E, 1]⟩ ⟨2, ![E, 64]⟩ [1] [0] [] [0] [] 1 ![1, 64])
    (t : (⟨2, ![50000, 64]⟩ : Shape).Idx → EReal) (idx : IVec ⟨2, ![E, 1]⟩ 32) (y : (⟨2, ![E, 64]⟩ : Shape).Idx) :
    Host.gather (rowGatherDims 50000 E 64 wf) t idx y
      = t (ix2 (clampRow (idx (rowIdx y))) (⟨(y 1).val, idx2_lt1 y⟩ : Fin 64)) :=
  rowGather_apply (by decide) wf t idx y

/-- The kernel's update at (e, f): the table's row at the wrapped, clamped source of e, column f, times e's weight. -/
theorem kupd_apply (t : FVec Ideal ⟨2, ![50000, 64]⟩ .f32) (srcP : IVec ⟨1, ![851968]⟩ 32)
    (nc : FVec Ideal ⟨2, ![851968, 1]⟩ .f32) (j : (⟨2, ![851968, 64]⟩ : Shape).Idx) :
    Cert.KernelIdeal.Val.scale64 (Host.gather Cert.KernelIdeal.gather_S50000x64_S851968x1_S851968x64_1_0_n_n_0_1_164 t (Cert.KernelIdeal.Val.colP (Cert.KernelIdeal.Val.wrapIdxP srcP))) nc j
      = t (ix2 (clampRow (wrapS (srcP (ix1 (⟨(j 0).val, idx2_lt0 j⟩ : Fin 851968))))) (⟨(j 1).val, idx2_lt1 j⟩ : Fin 64))
        * nc (rowIdx j) := by
  show FloatOps.mulf (Host.gather Cert.KernelIdeal.gather_S50000x64_S851968x1_S851968x64_1_0_n_n_0_1_164 t (Cert.KernelIdeal.Val.colP (Cert.KernelIdeal.Val.wrapIdxP srcP)) j)
    (nc (rowIdx j)) = _
  rw [Ideal.mulf_def, kgath_eq, rowGather_clamp, colP_apply, wrapIdxP_apply]

/-- The reference's wrap acts entry by entry. -/
theorem rwrap_apply (ei : IVec Cert.KernelIdeal.S2x800000 32) (p : (⟨1, ![850000]⟩ : Shape).Idx) :
    Cert.ReferenceIdeal.Read.val_main_v32 (F := Ideal) ei p = wrapS (Cert.ReferenceIdeal.Read.val_main_v3 (F := Ideal) ei p) := by
  unfold Cert.ReferenceIdeal.Read.val_main_v32 Cert.ReferenceIdeal.Read.val_main_v29 Cert.ReferenceIdeal.Read.val_main_v31 Cert.ReferenceIdeal.Read.val_main_v28 Cert.ReferenceIdeal.Read.val_main_v30 Cert.ReferenceIdeal.Read.val_main_c_4 Cert.ReferenceIdeal.Read.val_main_c_5
  rfl

/-- The reference's update at (e, f): the product's row at the wrapped, clamped source of e, column f, times e's weight. -/
theorem rupd_apply (x : FVec Ideal ⟨2, ![50000, 64]⟩ .f32) (ei : IVec Cert.KernelIdeal.S2x800000 32) (W : FVec Ideal ⟨2, ![64, 64]⟩ .f32)
    (j : (⟨2, ![850000, 64]⟩ : Shape).Idx) :
    Cert.ReferenceIdeal.Read.val_main_v37 (F := Ideal) x ei W j
      = Cert.ReferenceIdeal.Read.val_main_v27 (F := Ideal) x W (ix2 (clampRow (wrapS (Cert.ReferenceIdeal.Read.val_main_v3 (F := Ideal) ei (ix1 (⟨(j 0).val, idx2_lt0 j⟩ : Fin 850000)))))
          (⟨(j 1).val, idx2_lt1 j⟩ : Fin 64))
        * Cert.ReferenceIdeal.Read.val_main_v26 (F := Ideal) ei (ix1 (⟨(j 0).val, idx2_lt0 j⟩ : Fin 850000)) := by
  rw [Cert.ReferenceIdeal.Read.val_main_v37_apply, Ideal.mulf_def, Cert.ReferenceIdeal.Read.val_main_v36_apply, Cert.ReferenceIdeal.Read.val_main_v35_apply]
  unfold Cert.ReferenceIdeal.Read.val_main_v34
  rw [rgath_eq, rowGather_clamp, Cert.ReferenceIdeal.Read.val_main_v33_apply, rwrap_apply,
    idx1_ext (Cert.ReferenceIdeal.Read.idx_main_v33 (rowIdx j)) (ix1 (⟨(j 0).val, idx2_lt0 j⟩ : Fin 850000)) rfl,
    idx1_ext (Cert.ReferenceIdeal.Read.idx_main_v35 (Cert.ReferenceIdeal.Read.idx_main_v36 j)) (ix1 (⟨(j 0).val, idx2_lt0 j⟩ : Fin 850000)) rfl]

/-! ## The same facts at an index given by its coordinates -/

/-- The destinations' column at row e below 850000 is the list's entry e. -/
theorem colP_padI_cast (v : IVec ⟨1, ![850000]⟩ 32) (e : Fin 850000) :
    Cert.KernelIdeal.Val.colP (Cert.KernelIdeal.Val.padI v) (ix2 (Fin.castLE (by decide : 850000 ≤ 851968) e) (0 : Fin 1)) = v (ix1 e) := by
  rw [colP_apply]
  exact padI_lt v _ e.isLt

/-- The kernel's update at (e', f), by coordinates. -/
theorem kupd_ix (t : FVec Ideal ⟨2, ![50000, 64]⟩ .f32) (srcP : IVec ⟨1, ![851968]⟩ 32)
    (nc : FVec Ideal ⟨2, ![851968, 1]⟩ .f32) (e' : Fin 851968) (f : Fin 64) :
    Cert.KernelIdeal.Val.scale64 (Host.gather Cert.KernelIdeal.gather_S50000x64_S851968x1_S851968x64_1_0_n_n_0_1_164 t (Cert.KernelIdeal.Val.colP (Cert.KernelIdeal.Val.wrapIdxP srcP))) nc (ix2 e' f)
      = t (ix2 (clampRow (wrapS (srcP (ix1 e')))) f) * nc (ix2 e' (0 : Fin 1)) := by
  rw [kupd_apply, idx2_ext (rowIdx (ix2 e' f)) (ix2 e' (0 : Fin 1)) rfl rfl]

/-- The reference's update at (e, f), by coordinates. -/
theorem rupd_ix (x : FVec Ideal ⟨2, ![50000, 64]⟩ .f32) (ei : IVec Cert.KernelIdeal.S2x800000 32) (W : FVec Ideal ⟨2, ![64, 64]⟩ .f32)
    (e : Fin 850000) (f : Fin 64) :
    Cert.ReferenceIdeal.Read.val_main_v37 (F := Ideal) x ei W (ix2 e f)
      = Cert.ReferenceIdeal.Read.val_main_v27 (F := Ideal) x W (ix2 (clampRow (wrapS (Cert.ReferenceIdeal.Read.val_main_v3 (F := Ideal) ei (ix1 e)))) f)
        * Cert.ReferenceIdeal.Read.val_main_v26 (F := Ideal) ei (ix1 e) := by
  rw [rupd_apply]

/-- The weights' column at row e', by coordinates. -/
theorem col_padF_ix (v : FVec Ideal ⟨1, ![850000]⟩ .f32) (e' : Fin 851968) :
    shapeCast Cert.KernelIdeal.S851968x1 (Cert.KernelIdeal.Val.padF v) Cert.KernelIdeal.Gen.shapeCasts_S851968_S851968x1 (ix2 e' (0 : Fin 1)) = Cert.KernelIdeal.Val.padF v (ix1 e') := by
  rw [col_padF]

/-! ## The scatter-add -/

/-- The two programs' zero arrays are the same text. -/
theorem zeros_eq : broadcastInDim Cert.KernelIdeal.S50000x64 ![] Cert.KernelIdeal.Gen.bcast_S_S50000x64 (constant (F := Ideal) Cert.KernelIdeal.S_ .f32 0x00000000#32)
    = Cert.ReferenceIdeal.Read.val_main_v38 (F := Ideal) := rfl

/-- The kernel program's sum over the padded edge list is the reference's sum over the edge list: the rows agree up to
    850000, and from there on the weight is zero, so the update is a product with zero. -/
theorem scatter_eq (x : FVec Ideal ⟨2, ![50000, 64]⟩ .f32) (ei : IVec Cert.KernelIdeal.S2x800000 32) (W : FVec Ideal ⟨2, ![64, 64]⟩ .f32) :
    Host.scatterAdd Cert.KernelIdeal.scatter_S50000x64_S851968x1_S851968x64_1_0_0_1
        (Cert.ReferenceIdeal.Read.val_main_v38 (F := Ideal))
        (Cert.KernelIdeal.Val.colP (Cert.KernelIdeal.Val.padI (Cert.ReferenceIdeal.Read.val_main_v6 (F := Ideal) ei)))
        (Cert.KernelIdeal.Val.scale64 (Host.gather Cert.KernelIdeal.gather_S50000x64_S851968x1_S851968x64_1_0_n_n_0_1_164 (Cert.ReferenceIdeal.Read.val_main_v27 (F := Ideal) x W)
          (Cert.KernelIdeal.Val.colP (Cert.KernelIdeal.Val.wrapIdxP (Cert.KernelIdeal.Val.padI (Cert.ReferenceIdeal.Read.val_main_v3 (F := Ideal) ei)))))
          (shapeCast Cert.KernelIdeal.S851968x1 (Cert.KernelIdeal.Val.padF (Cert.ReferenceIdeal.Read.val_main_v26 (F := Ideal) ei)) Cert.KernelIdeal.Gen.shapeCasts_S851968_S851968x1))
      = Cert.ReferenceIdeal.Read.val_main_v40 (F := Ideal) x ei W := by
  unfold Cert.ReferenceIdeal.Read.val_main_v40 Host.scatterAdd
  rw [Ideal.hostScatterAdd_def, Ideal.hostScatterAdd_def, kscat_eq, rscat_eq]
  refine rowScatterAdd_pad (by decide : 850000 ≤ 851968) _ _ _ _ _ _ _ ?_ ?_ ?_
  · intro e
    rw [colP_padI_cast, Cert.ReferenceIdeal.Read.val_main_v39_apply]
    exact congrArg (Cert.ReferenceIdeal.Read.val_main_v6 (F := Ideal) ei) (idx1_ext _ _ rfl)
  · intro e f
    rw [kupd_ix, rupd_ix, col_padF_ix]
    rw [padI_lt _ _ e.isLt, padF_lt _ _ e.isLt]
    rfl
  · intro e' f h
    rw [kupd_ix, col_padF_ix, padF_ge _ _ h, mul_zero]

/-! ## The layer -/

/-- The bias and the maximum with zero, at an index. -/
theorem biasRelu64_apply (a : FVec Ideal ⟨2, ![50000, 64]⟩ .f32) (b : FVec Ideal ⟨1, ![64]⟩ .f32)
    (i : (⟨2, ![50000, 64]⟩ : Shape).Idx) :
    Cert.KernelIdeal.Val.biasRelu64 a b i
      = FloatOps.maximumf (FloatOps.addf (a i) (b (ix1 (⟨(i 1).val, idx2_lt1 i⟩ : Fin 64)))) (FloatOps.ofBits .f32 0x00000000#32) := rfl

/-- The first layer: the kernel program's padded layer over 851968 edges is the reference's layer over 850000 edges
    (its stage after the maximum with zero), as functions of the arguments. -/
theorem layer1_eq (x : FVec Ideal Cert.KernelIdeal.S50000x64 .f32) (ei : IVec Cert.KernelIdeal.S2x800000 32)
    (W1 : FVec Ideal Cert.KernelIdeal.S64x64 .f32) (b1 : FVec Ideal Cert.KernelIdeal.S64 .f32) :
    Cert.KernelIdeal.Val.layer1 x W1 b1 (Cert.KernelIdeal.Val.padI (Cert.KernelIdeal.Val.srcOf ei))
        (Cert.KernelIdeal.Val.padI (Cert.KernelIdeal.Val.dstOf ei)) (Cert.KernelIdeal.Val.normCol ei)
      = Cert.ReferenceIdeal.Read.val_main_v44 (F := Ideal) x ei W1 b1 := by
  unfold Cert.KernelIdeal.Val.layer1 Cert.KernelIdeal.Val.normCol
  rw [src_eq, dst_eq, norm_eq, mm64_eq, zeros_eq, scatter_eq]
  funext i
  rw [biasRelu64_apply, Cert.ReferenceIdeal.Read.val_main_v44_apply, Cert.ReferenceIdeal.Read.val_main_v43_apply, Cert.ReferenceIdeal.Read.val_main_v42_apply, Cert.ReferenceIdeal.Read.val_main_v41_apply,
    Cert.ReferenceIdeal.Read.val_main_call0_v0_apply, Cert.ReferenceIdeal.Read.val_main_call0_cst_apply,
    idx1_ext (Cert.ReferenceIdeal.Read.idx_main_v41 (Cert.ReferenceIdeal.Read.idx_main_v42 i)) (ix1 (⟨(i 1).val, idx2_lt1 i⟩ : Fin 64)) rfl]

end Cert.Bridge64

end
-- ==== Proof.Bridge16.lean ====
/-
  One layer of the padded program is one layer of the reference, over the extended reals.

  The program pads the edge list from 850000 to 851968 edges with source 0, destination 0 and weight 0. A layer gathers
  the rows of a table hW = h W at the (wrapped) sources, multiplies row e by the weight of edge e, sums the rows into
  their destinations and adds the bias. On the first 850000 rows the padded program's index columns, weights and
  gathered rows are the reference's, entry by entry; on the 1968 padding rows the weight is 0, and over the extended
  reals a * 0 = 0 for EVERY a, so those rows are zero and a zero row adds nothing wherever its index sends it. Hence
  the two sums into the destinations are one array, and so are the two layers. No finiteness of any input is used.

  The layout operations (a list padded by a concatenation, a list as a column, a column broadcast along the features,
  a bias row broadcast along the rows) are first read at an index over variables; the layer is then proved over
  variables (a table hW, a bias b, an edge list src, dst and its weights nrm), and the stated theorem unfolds the
  reference's stages onto that statement.
-/
import proofs.«179984_j48653389529562_1_alg».proof.Proof.KerVal
import proofs.«179984_j48653389529562_1_alg».proof.Proof.LibRows
import proofs.«179984_j48653389529562_1_alg».proof.Proof.LibPad
import proofs.«179984_j48653389529562_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open scoped BigOperators

namespace Cert.Bridge16

open Idealize.ShloMosaic Idealize.ShloMosaic.ValueIdx Cert.Rows

/-! ## Layout operations read at an index (over variables) -/

section Layout
variable {α : Type}

/-- A list padded from 850000 to 851968 entries, read at one of its first 850000 positions, is the list there. -/
theorem pad_left (v : (⟨1, ![850000]⟩ : Shape).Idx → α) (z : (⟨1, ![1968]⟩ : Shape).Idx → α)
    (hc : Shape.Concatenates [(⟨1, ![850000]⟩ : Shape), ⟨1, ![1968]⟩] ⟨1, ![851968]⟩ 0) (e : Fin 850000) :
    concatenate (⟨1, ![851968]⟩ : Shape) 0 [⟨⟨1, ![850000]⟩, v⟩, ⟨⟨1, ![1968]⟩, z⟩] hc
        (ix1 (Fin.castLE (by decide : 850000 ≤ 851968) e)) = v (ix1 e) :=
  concatenate_pair_apply_left 0 v z hc _ rfl (ix1 e) (fun b => match b with | ⟨0, _⟩ => rfl)

/-- Read at a position from 850000 on, it is the padding there. -/
theorem pad_right (v : (⟨1, ![850000]⟩ : Shape).Idx → α) (z : (⟨1, ![1968]⟩ : Shape).Idx → α)
    (hc : Shape.Concatenates [(⟨1, ![850000]⟩ : Shape), ⟨1, ![1968]⟩] ⟨1, ![851968]⟩ 0) (e' : Fin 851968)
    (he : 850000 ≤ e'.val) :
    concatenate (⟨1, ![851968]⟩ : Shape) 0 [⟨⟨1, ![850000]⟩, v⟩, ⟨⟨1, ![1968]⟩, z⟩] hc (ix1 e')
      = z (ix1 (⟨e'.val - 850000, by omega⟩ : Fin 1968)) :=
  concatenate_pair_apply_right 0 v z hc _ rfl rfl (ix1 (⟨e'.val - 850000, by omega⟩ : Fin 1968))
    (fun b => match b with | ⟨0, _⟩ => fun hb => absurd rfl hb)
    (by show e'.val - 850000 + 850000 = e'.val; omega)

/-- A list [E] as a column [E, 1] (a broadcast along a new unit axis), read at (e, c), is the list at e. -/
theorem col_apply {E : Nat} (hE : E ≠ 1) (v : (⟨1, ![E]⟩ : Shape).Idx → α)
    (hb : (⟨1, ![E]⟩ : Shape).BroadcastsInDim ⟨2, ![E, 1]⟩ ![0]) (e : Fin E) (c : Fin 1) :
    broadcastInDim (⟨2, ![E, 1]⟩ : Shape) ![0] hb v (ix2 e c) = v (ix1 e) :=
  broadcastInDim_apply _ hb v _ (ix1 e) (fun a => match a with
    | ⟨0, _⟩ => by show e.val = if E = 1 then 0 else e.val; rw [if_neg hE])

/-- A column [E, 1] broadcast to [E, n], read at (e, f), is the column at (e, 0). -/
theorem colBcast_apply {E n : Nat} (hE : E ≠ 1) (v : (⟨2, ![E, 1]⟩ : Shape).Idx → α)
    (hb : (⟨2, ![E, 1]⟩ : Shape).BroadcastsInDim ⟨2, ![E, n]⟩ ![0, 1]) (e : Fin E) (f : Fin n) :
    broadcastInDim (⟨2, ![E, n]⟩ : Shape) ![0, 1] hb v (ix2 e f) = v (ix2 e (0 : Fin 1)) :=
  broadcastInDim_apply _ hb v _ (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])

/-- A list [E] reshaped to a column [E, 1], read at (e, c), is the list at e. -/
theorem colCast_apply {E : Nat} (v : (⟨1, ![E]⟩ : Shape).Idx → α)
    (hc : (⟨1, ![E]⟩ : Shape).ShapeCasts ⟨2, ![E, 1]⟩) (e : Fin E) (c : Fin 1) :
    shapeCast (⟨2, ![E, 1]⟩ : Shape) v hc (ix2 e c) = v (ix1 e) :=
  shapeCast_apply v hc _ (ix1 e) (by
    rewrite [Shape.rowMajor_val_one, Shape.rowMajor_val_two]
    show e.val = e.val * 1 + c.val
    have := c.isLt
    omega)

/-- A row [n] broadcast to [1, n] and then to [N, n], read at (r, f), is the row at f. -/
theorem rowBcast_apply {N n : Nat} (hn : n ≠ 1) (b : (⟨1, ![n]⟩ : Shape).Idx → α)
    (hb1 : (⟨1, ![n]⟩ : Shape).BroadcastsInDim ⟨2, ![1, n]⟩ ![1])
    (hb2 : (⟨2, ![1, n]⟩ : Shape).BroadcastsInDim ⟨2, ![N, n]⟩ ![0, 1]) (r : Fin N) (f : Fin n) :
    broadcastInDim (⟨2, ![N, n]⟩ : Shape) ![0, 1] hb2 (broadcastInDim (⟨2, ![1, n]⟩ : Shape) ![1] hb1 b) (ix2 r f)
      = b (ix1 f) := by
  rw [broadcastInDim_apply _ hb2 _ (ix2 r f) (ix2 (0 : Fin 1) f) (fun a => match a with
    | ⟨0, _⟩ => by show 0 = if (1 : Nat) = 1 then 0 else r.val; rw [if_pos rfl]
    | ⟨1, _⟩ => by show f.val = if n = 1 then 0 else f.val; rw [if_neg hn])]
  exact broadcastInDim_apply _ hb1 b _ (ix1 f) (fun a => match a with
    | ⟨0, _⟩ => by show f.val = if n = 1 then 0 else f.val; rw [if_neg hn])

end Layout

/-- The zero constant broadcast to a list, read anywhere, is the extended real 0. -/
theorem zeros_apply {s : Shape} (hb : (⟨0, ![]⟩ : Shape).BroadcastsInDim s ![]) (j : s.Idx) :
    broadcastInDim s ![] hb (constant (F := Ideal) ⟨0, ![]⟩ .f32 0x00000000#32) j = (0 : EReal) := by
  rw [broadcastInDim_apply _ hb _ j ix0 (fun a => a.elim0)]
  show Ideal.ofBits .f32 0x00000000#32 = 0
  exact Ideal.ofBits_zero_f32

/-! ## The two programs' records and edge lists are the same text -/

theorem scatK_eq : Cert.KernelIdeal.scatter_S50000x16_S851968x1_S851968x16_1_0_0_1
    = rowScatterDims 50000 851968 16 Cert.KernelIdeal.Facts₀.scatter_S50000x16_S851968x1_S851968x16_1_0_0_1_wf := rfl

theorem scatR_eq : Cert.ReferenceIdeal.scatter_S50000x16_S850000x1_S850000x16_1_0_0_1
    = rowScatterDims 50000 850000 16 Cert.ReferenceIdeal.Facts₀.scatter_S50000x16_S850000x1_S850000x16_1_0_0_1_wf := rfl

theorem gathK_eq : Cert.KernelIdeal.gather_S50000x16_S851968x1_S851968x16_1_0_n_n_0_1_116
    = rowGatherDims 50000 851968 16 Cert.KernelIdeal.Facts₀.gather_S50000x16_S851968x1_S851968x16_1_0_n_n_0_1_116_wf := rfl

theorem gathR_eq : Cert.ReferenceIdeal.gather_S50000x16_S850000x1_S850000x16_1_0_n_n_0_1_116
    = rowGatherDims 50000 850000 16 Cert.ReferenceIdeal.Facts₀.gather_S50000x16_S850000x1_S850000x16_1_0_n_n_0_1_116_wf := rfl

theorem src_eq (ei : IVec Cert.KernelIdeal.S2x800000 32) :
    Cert.KernelIdeal.Val.srcOf ei = Cert.ReferenceIdeal.Read.val_main_v3 (F := Ideal) ei := rfl

theorem dst_eq (ei : IVec Cert.KernelIdeal.S2x800000 32) :
    Cert.KernelIdeal.Val.dstOf ei = Cert.ReferenceIdeal.Read.val_main_v6 (F := Ideal) ei := rfl

theorem nrm_eq (ei : IVec Cert.KernelIdeal.S2x800000 32) :
    Cert.KernelIdeal.Val.normOf ei = Cert.ReferenceIdeal.Read.val_main_v26 (F := Ideal) ei := rfl

/-! ## The wrap of a negative index, one entry at a time -/

/-- A negative index counts from the end: w + 50000 where w < 0 (signed), else w. -/
def wrapS (w : BitVec 32) : BitVec 32 := Scalar.select (IntOp.cmpi .slt w 0#32) (IntOp.addi w 50000#32) w

theorem wrapIdxP_apply (v : IVec Cert.KernelIdeal.S851968 32) (j : Cert.KernelIdeal.S851968.Idx) :
    Cert.KernelIdeal.Val.wrapIdxP v j = wrapS (v j) := rfl

theorem wrapIdx_apply (v : IVec Cert.KernelIdeal.S850000 32) (j : Cert.KernelIdeal.S850000.Idx) :
    Cert.KernelIdeal.Val.wrapIdx v j = wrapS (v j) := rfl

/-! ## The padded program's index columns and weights at a row -/

section Rows
variable (src dst : IVec (⟨1, ![850000]⟩ : Shape) 32) (nrm : FVec Ideal (⟨1, ![850000]⟩ : Shape) .f32)

/-- The padded wrapped sources' column at one of the first 850000 rows. -/
theorem srcColP_apply (e : Fin 850000) :
    Cert.KernelIdeal.Val.colP (Cert.KernelIdeal.Val.wrapIdxP (Cert.KernelIdeal.Val.padI src))
        (ix2 (Fin.castLE (by decide : 850000 ≤ 851968) e) (0 : Fin 1)) = wrapS (src (ix1 e)) :=
  (col_apply (by decide) _ _ _ _).trans
    ((wrapIdxP_apply _ _).trans (congrArg wrapS (pad_left src _ _ e)))

/-- The reference's wrapped sources' column at a row. -/
theorem srcColR_apply (e : Fin 850000) :
    broadcastInDim Cert.ReferenceIdeal.S850000x1 ![0] Cert.ReferenceIdeal.Facts₀.bcast_S850000_S850000x1_0
        (Cert.KernelIdeal.Val.wrapIdx src) (ix2 e (0 : Fin 1)) = wrapS (src (ix1 e)) :=
  (col_apply (by decide) _ _ _ _).trans (wrapIdx_apply _ _)

/-- The padded destinations' column at one of the first 850000 rows. -/
theorem dstColP_apply (e : Fin 850000) :
    Cert.KernelIdeal.Val.colP (Cert.KernelIdeal.Val.padI dst)
        (ix2 (Fin.castLE (by decide : 850000 ≤ 851968) e) (0 : Fin 1)) = dst (ix1 e) :=
  (col_apply (by decide) _ _ _ _).trans (pad_left dst _ _ e)

/-- The reference's destinations' column at a row. -/
theorem dstColR_apply (e : Fin 850000) :
    broadcastInDim Cert.ReferenceIdeal.S850000x1 ![0] Cert.ReferenceIdeal.Facts₀.bcast_S850000_S850000x1_0
        dst (ix2 e (0 : Fin 1)) = dst (ix1 e) :=
  col_apply (by decide) _ _ _ _

/-- The padded weights' column at one of the first 850000 rows. -/
theorem nrmColP_apply (e : Fin 850000) :
    shapeCast Cert.KernelIdeal.S851968x1 (Cert.KernelIdeal.Val.padF nrm) Cert.KernelIdeal.Facts₀.shapeCasts_S851968_S851968x1
        (ix2 (Fin.castLE (by decide : 850000 ≤ 851968) e) (0 : Fin 1)) = nrm (ix1 e) :=
  (colCast_apply _ _ _ _).trans (pad_left nrm _ _ e)

/-- The padded weights' column at a padding row is zero. -/
theorem nrmColP_pad (e' : Fin 851968) (he : 850000 ≤ e'.val) :
    shapeCast Cert.KernelIdeal.S851968x1 (Cert.KernelIdeal.Val.padF nrm) Cert.KernelIdeal.Facts₀.shapeCasts_S851968_S851968x1
        (ix2 e' (0 : Fin 1)) = (0 : EReal) :=
  (colCast_apply _ _ _ _).trans ((pad_right nrm _ _ e' he).trans (zeros_apply _ _))

/-- The reference's weights, as a column broadcast along the 16 features, at (e, f). -/
theorem nrmColR_apply (e : Fin 850000) (f : Fin 16) :
    broadcastInDim Cert.ReferenceIdeal.S850000x16 ![0, 1] Cert.ReferenceIdeal.Facts₀.bcast_S850000x1_S850000x16_0_1
        (broadcastInDim Cert.ReferenceIdeal.S850000x1 ![0] Cert.ReferenceIdeal.Facts₀.bcast_S850000_S850000x1_0 nrm)
        (ix2 e f) = nrm (ix1 e) :=
  (colBcast_apply (by decide) _ _ _ _).trans (col_apply (by decide) _ _ _ _)

end Rows

/-! ## A row gather read at (e, f) -/

/-- A start index read signed and clamped into the rows 0 .. N - 1 of the table. -/
def clampRow {N : Nat} (hN : 0 < N) {w : Nat} (v : BitVec w) : Fin N := ⟨min v.toInt.toNat (N - 1), by omega⟩

/-- The start-indices index of the update (e, f) is (e, 0). -/
theorem rowIdx_ix2 {E n : Nat} (e : Fin E) (f : Fin n) : rowIdx (ix2 e f) = ix2 e (0 : Fin 1) :=
  rowIdx_eq_ix2 (ix2 e f)

/-- The row gather at (e, f): the table at the clamped row idx[e, 0], column f. -/
theorem rowGather_ix2 {α : Type} {N E n w : Nat} (hN : 0 < N)
    (wf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (e : Fin E) (f : Fin n) :
    Host.gather (rowGatherDims N E n wf) x idx (ix2 e f) = x (ix2 (clampRow hN (idx (ix2 e (0 : Fin 1)))) f) := by
  rw [← rowIdx_ix2 e f]
  exact rowGather_apply hN wf x idx (ix2 e f)

/-! ## The layer over variables: a table hW of rows, an edge list (src, dst) and its weights -/

section Core
variable (hW : FVec Ideal (⟨2, ![50000, 16]⟩ : Shape) .f32) (b : FVec Ideal (⟨1, ![16]⟩ : Shape) .f32)
  (src dst : IVec (⟨1, ![850000]⟩ : Shape) 32) (nrm : FVec Ideal (⟨1, ![850000]⟩ : Shape) .f32)

/-- The padded program's rows to sum: the gathered rows, each times its edge's padded weight. -/
def updK : FVec Ideal (⟨2, ![851968, 16]⟩ : Shape) .f32 :=
  Cert.KernelIdeal.Val.scale16
    (Host.gather Cert.KernelIdeal.gather_S50000x16_S851968x1_S851968x16_1_0_n_n_0_1_116 hW
      (Cert.KernelIdeal.Val.colP (Cert.KernelIdeal.Val.wrapIdxP (Cert.KernelIdeal.Val.padI src))))
    (shapeCast Cert.KernelIdeal.S851968x1 (Cert.KernelIdeal.Val.padF nrm)
      Cert.KernelIdeal.Facts₀.shapeCasts_S851968_S851968x1)

/-- The reference's rows to sum: the gathered rows times the weights broadcast along the features. -/
def updR : FVec Ideal (⟨2, ![850000, 16]⟩ : Shape) .f32 :=
  mulf
    (Host.gather Cert.ReferenceIdeal.gather_S50000x16_S850000x1_S850000x16_1_0_n_n_0_1_116 hW
      (broadcastInDim Cert.ReferenceIdeal.S850000x1 ![0] Cert.ReferenceIdeal.Facts₀.bcast_S850000_S850000x1_0
        (Cert.KernelIdeal.Val.wrapIdx src)))
    (broadcastInDim Cert.ReferenceIdeal.S850000x16 ![0, 1] Cert.ReferenceIdeal.Facts₀.bcast_S850000x1_S850000x16_0_1
      (broadcastInDim Cert.ReferenceIdeal.S850000x1 ![0] Cert.ReferenceIdeal.Facts₀.bcast_S850000_S850000x1_0 nrm))

/-- On the first 850000 rows the padded program's row is the reference's: the same table row (the wrapped source,
    clamped) times the same weight. -/
theorem updK_castLE (e : Fin 850000) (f : Fin 16) :
    updK hW src nrm (ix2 (Fin.castLE (by decide : 850000 ≤ 851968) e) f) = updR hW src nrm (ix2 e f) := by
  show FloatOps.mulf
      (Host.gather Cert.KernelIdeal.gather_S50000x16_S851968x1_S851968x16_1_0_n_n_0_1_116 hW
        (Cert.KernelIdeal.Val.colP (Cert.KernelIdeal.Val.wrapIdxP (Cert.KernelIdeal.Val.padI src)))
        (ix2 (Fin.castLE (by decide : 850000 ≤ 851968) e) f))
      (shapeCast Cert.KernelIdeal.S851968x1 (Cert.KernelIdeal.Val.padF nrm)
        Cert.KernelIdeal.Facts₀.shapeCasts_S851968_S851968x1
        (rowIdx (ix2 (Fin.castLE (by decide : 850000 ≤ 851968) e) f)))
    = FloatOps.mulf
      (Host.gather Cert.ReferenceIdeal.gather_S50000x16_S850000x1_S850000x16_1_0_n_n_0_1_116 hW
        (broadcastInDim Cert.ReferenceIdeal.S850000x1 ![0] Cert.ReferenceIdeal.Facts₀.bcast_S850000_S850000x1_0
          (Cert.KernelIdeal.Val.wrapIdx src)) (ix2 e f))
      (broadcastInDim Cert.ReferenceIdeal.S850000x16 ![0, 1] Cert.ReferenceIdeal.Facts₀.bcast_S850000x1_S850000x16_0_1
        (broadcastInDim Cert.ReferenceIdeal.S850000x1 ![0] Cert.ReferenceIdeal.Facts₀.bcast_S850000_S850000x1_0 nrm)
        (ix2 e f))
  rw [rowIdx_ix2, nrmColP_apply, nrmColR_apply, gathK_eq, gathR_eq,
    rowGather_ix2 (by decide : 0 < 50000), rowGather_ix2 (by decide : 0 < 50000), srcColP_apply, srcColR_apply]

/-- On the padding rows the padded program's row is zero: anything times the weight 0. -/
theorem updK_pad (e' : Fin 851968) (f : Fin 16) (he : 850000 ≤ e'.val) :
    updK hW src nrm (ix2 e' f) = 0 := by
  show FloatOps.mulf
      (Host.gather Cert.KernelIdeal.gather_S50000x16_S851968x1_S851968x16_1_0_n_n_0_1_116 hW
        (Cert.KernelIdeal.Val.colP (Cert.KernelIdeal.Val.wrapIdxP (Cert.KernelIdeal.Val.padI src))) (ix2 e' f))
      (shapeCast Cert.KernelIdeal.S851968x1 (Cert.KernelIdeal.Val.padF nrm)
        Cert.KernelIdeal.Facts₀.shapeCasts_S851968_S851968x1 (rowIdx (ix2 e' f))) = 0
  rw [rowIdx_ix2, nrmColP_pad nrm e' he, Ideal.mulf_def, mul_zero]

/-- The two sums into the destinations are the same array. -/
theorem scatter_eq :
    Host.scatterAdd Cert.KernelIdeal.scatter_S50000x16_S851968x1_S851968x16_1_0_0_1
        (broadcastInDim Cert.KernelIdeal.S50000x16 ![] Cert.KernelIdeal.Facts₀.bcast_S_S50000x16
          (constant Cert.KernelIdeal.S_ .f32 0x00000000#32))
        (Cert.KernelIdeal.Val.colP (Cert.KernelIdeal.Val.padI dst)) (updK hW src nrm)
      = Host.scatterAdd Cert.ReferenceIdeal.scatter_S50000x16_S850000x1_S850000x16_1_0_0_1
        (broadcastInDim Cert.ReferenceIdeal.S50000x16 ![] Cert.ReferenceIdeal.Facts₀.bcast_S_S50000x16
          (constant Cert.ReferenceIdeal.S_ .f32 0x00000000#32))
        (broadcastInDim Cert.ReferenceIdeal.S850000x1 ![0] Cert.ReferenceIdeal.Facts₀.bcast_S850000_S850000x1_0 dst)
        (updR hW src nrm) := by
  rw [scatK_eq, scatR_eq]
  simp only [Host.scatterAdd, Ideal.hostScatterAdd_def]
  exact rowScatterAdd_pad (by decide : 850000 ≤ 851968) _ _ _ _ _ _ _
    (fun e => (dstColP_apply dst e).trans (dstColR_apply dst e).symm)
    (fun e f => updK_castLE hW src nrm e f)
    (fun e' f he => updK_pad hW src nrm e' f he)

/-- Adding the bias of the column: the kernel's closed form is the reference's sum with the bias broadcast
    along the rows, whatever the aggregate A. -/
theorem bias_eq (A : FVec Ideal (⟨2, ![50000, 16]⟩ : Shape) .f32) (b : FVec Ideal (⟨1, ![16]⟩ : Shape) .f32) :
    Cert.KernelIdeal.Val.bias16 A b
      = addf A
        (broadcastInDim Cert.ReferenceIdeal.S50000x16 ![0, 1] Cert.ReferenceIdeal.Facts₀.bcast_S1x16_S50000x16_0_1
          (broadcastInDim Cert.ReferenceIdeal.S1x16 ![1] Cert.ReferenceIdeal.Facts₀.bcast_S16_S1x16_1 b)) := by
  funext i
  obtain ⟨r, f, rfl⟩ : ∃ (r : Fin 50000) (f : Fin 16), i = ix2 r f := ⟨i 0, i 1, eq_ix2 i⟩
  show FloatOps.addf (A (ix2 r f)) (b (ix1 f)) = FloatOps.addf (A (ix2 r f))
    (broadcastInDim Cert.ReferenceIdeal.S50000x16 ![0, 1] Cert.ReferenceIdeal.Facts₀.bcast_S1x16_S50000x16_0_1
      (broadcastInDim Cert.ReferenceIdeal.S1x16 ![1] Cert.ReferenceIdeal.Facts₀.bcast_S16_S1x16_1 b) (ix2 r f))
  rw [rowBcast_apply (by decide)]

/-- THE LAYER OVER VARIABLES: the padded program's layer is the reference's. -/
theorem layer_core :
    Cert.KernelIdeal.Val.bias16
        (Host.scatterAdd Cert.KernelIdeal.scatter_S50000x16_S851968x1_S851968x16_1_0_0_1
          (broadcastInDim Cert.KernelIdeal.S50000x16 ![] Cert.KernelIdeal.Facts₀.bcast_S_S50000x16
            (constant Cert.KernelIdeal.S_ .f32 0x00000000#32))
          (Cert.KernelIdeal.Val.colP (Cert.KernelIdeal.Val.padI dst)) (updK hW src nrm)) b
      = addf
        (Host.scatterAdd Cert.ReferenceIdeal.scatter_S50000x16_S850000x1_S850000x16_1_0_0_1
          (broadcastInDim Cert.ReferenceIdeal.S50000x16 ![] Cert.ReferenceIdeal.Facts₀.bcast_S_S50000x16
            (constant Cert.ReferenceIdeal.S_ .f32 0x00000000#32))
          (broadcastInDim Cert.ReferenceIdeal.S850000x1 ![0] Cert.ReferenceIdeal.Facts₀.bcast_S850000_S850000x1_0 dst)
          (updR hW src nrm))
        (broadcastInDim Cert.ReferenceIdeal.S50000x16 ![0, 1] Cert.ReferenceIdeal.Facts₀.bcast_S1x16_S50000x16_0_1
          (broadcastInDim Cert.ReferenceIdeal.S1x16 ![1] Cert.ReferenceIdeal.Facts₀.bcast_S16_S1x16_1 b)) := by
  rw [scatter_eq]
  exact bias_eq _ b

end Core

/-! ## The stated theorem: the stages of the reference's layer, unfolded onto the layer over variables -/

/-- The kernel's dense product of the first layer's result and W2 is the reference's dot_general (stage 45), as arrays:
    at (r, c) both are the sum over k of h (r, k) * W2 (k, c). -/
theorem mm16_eq (x : FVec Ideal Cert.KernelIdeal.S50000x64 .f32) (ei : IVec Cert.KernelIdeal.S2x800000 32)
    (W1 : FVec Ideal Cert.KernelIdeal.S64x64 .f32) (b1 : FVec Ideal Cert.KernelIdeal.S64 .f32)
    (W2 : FVec Ideal Cert.KernelIdeal.S64x16 .f32) :
    Cert.KernelIdeal.Val.mm16 (Cert.ReferenceIdeal.Read.val_main_v44 (F := Ideal) x ei W1 b1) W2
      = Cert.ReferenceIdeal.Read.val_main_v45 (F := Ideal) x ei W1 b1 W2 := by
  funext i
  rw [Cert.ReferenceIdeal.Read.val_main_v45_apply]
  generalize Cert.ReferenceIdeal.Read.val_main_v44 (F := Ideal) x ei W1 b1 = h
  unfold Cert.KernelIdeal.Val.mm16
  refine Finset.sum_congr rfl fun k _ => ?_
  have el : ix2 (⟨(i 0).val, idx2_lt0 i⟩ : Fin 50000) k = Cert.ReferenceIdeal.Read.lidx_main_v45 i k :=
    funext fun a => Fin.ext (by
      match a with
      | ⟨0, _⟩ => rfl
      | ⟨1, _⟩ => rfl)
  have er : ix2 k (⟨(i 1).val, idx2_lt1 i⟩ : Fin 16) = Cert.ReferenceIdeal.Read.ridx_main_v45 i k :=
    funext fun a => Fin.ext (by
      match a with
      | ⟨0, _⟩ => rfl
      | ⟨1, _⟩ => rfl)
  rw [el, er]

/-- The second layer, fed the reference's first-layer stage: the kernel program's padded layer over 851968 edges is the
    reference's layer over 850000 edges (its last stage), as functions of the arguments. -/
theorem layer2_eq (x : FVec Ideal Cert.KernelIdeal.S50000x64 .f32) (ei : IVec Cert.KernelIdeal.S2x800000 32)
    (W1 : FVec Ideal Cert.KernelIdeal.S64x64 .f32) (b1 : FVec Ideal Cert.KernelIdeal.S64 .f32)
    (W2 : FVec Ideal Cert.KernelIdeal.S64x16 .f32) (b2 : FVec Ideal Cert.KernelIdeal.S16 .f32) :
    Cert.KernelIdeal.Val.layer2 (Cert.ReferenceIdeal.Read.val_main_v44 (F := Ideal) x ei W1 b1) W2 b2
        (Cert.KernelIdeal.Val.padI (Cert.KernelIdeal.Val.srcOf ei))
        (Cert.KernelIdeal.Val.padI (Cert.KernelIdeal.Val.dstOf ei)) (Cert.KernelIdeal.Val.normCol ei)
      = Cert.ReferenceIdeal.Read.val_main_v61 (F := Ideal) x ei W1 b1 W2 b2 := by
  unfold Cert.KernelIdeal.Val.layer2 Cert.KernelIdeal.Val.normCol
  rw [mm16_eq, src_eq, dst_eq, nrm_eq]
  unfold Cert.ReferenceIdeal.Read.val_main_v61 Cert.ReferenceIdeal.Read.val_main_v60 Cert.ReferenceIdeal.Read.val_main_v59
    Cert.ReferenceIdeal.Read.val_main_v58 Cert.ReferenceIdeal.Read.val_main_v57 Cert.ReferenceIdeal.Read.val_main_v56
    Cert.ReferenceIdeal.Read.val_main_cst_9 Cert.ReferenceIdeal.Read.val_main_v55 Cert.ReferenceIdeal.Read.val_main_v54
    Cert.ReferenceIdeal.Read.val_main_v53 Cert.ReferenceIdeal.Read.val_main_v52 Cert.ReferenceIdeal.Read.val_main_v51
    Cert.ReferenceIdeal.Read.val_main_v50 Cert.ReferenceIdeal.Read.val_main_v49 Cert.ReferenceIdeal.Read.val_main_v48
    Cert.ReferenceIdeal.Read.val_main_c_8 Cert.ReferenceIdeal.Read.val_main_v47 Cert.ReferenceIdeal.Read.val_main_v46
    Cert.ReferenceIdeal.Read.val_main_c_7
  generalize Cert.ReferenceIdeal.Read.val_main_v45 (F := Ideal) x ei W1 b1 W2 = hW
  generalize Cert.ReferenceIdeal.Read.val_main_v3 (F := Ideal) ei = src
  generalize Cert.ReferenceIdeal.Read.val_main_v6 (F := Ideal) ei = dst
  generalize Cert.ReferenceIdeal.Read.val_main_v26 (F := Ideal) ei = nrm
  exact layer_core hW b2 src dst nrm

end Cert.Bridge16

end
-- ==== Proof.Bridge.lean ====
/-
  The two programs compute one function: the kernel program's value function of KerVal.lean, layer by layer, is the
  reference's last stage. Each layer's equality is its own module; here they are composed.
-/
import proofs.«179984_j48653389529562_1_alg».proof.Proof.KerVal
import proofs.«179984_j48653389529562_1_alg».proof.Proof.Bridge64
import proofs.«179984_j48653389529562_1_alg».proof.Proof.Bridge16
import proofs.«179984_j48653389529562_1_alg».proof.Proof.Gen.ReferenceIdeal.Read

noncomputable section

namespace Cert.Bridge

open Idealize.ShloMosaic

/-- The kernel program's value function and the reference's last stage are one function of the six arguments:
    the first layer's equality feeds the second's. -/
theorem kerVal_eq_ref (x : FVec Ideal Cert.KernelIdeal.S50000x64 .f32) (ei : IVec Cert.KernelIdeal.S2x800000 32)
    (W1 : FVec Ideal Cert.KernelIdeal.S64x64 .f32) (b1 : FVec Ideal Cert.KernelIdeal.S64 .f32)
    (W2 : FVec Ideal Cert.KernelIdeal.S64x16 .f32) (b2 : FVec Ideal Cert.KernelIdeal.S16 .f32) :
    Cert.KernelIdeal.Val.kerVal x ei W1 b1 W2 b2
      = Cert.ReferenceIdeal.Read.val_main_v61 (F := Ideal) x ei W1 b1 W2 b2 := by
  unfold Cert.KernelIdeal.Val.kerVal
  rw [Cert.Bridge64.layer1_eq x ei W1 b1]
  exact Cert.Bridge16.layer2_eq x ei W1 b1 W2 b2

end Cert.Bridge

end
-- ==== Proof.lean ====
/-
  The certificate of a two-layer graph convolution whose dense products, per-edge scaling and bias steps are six
  kernels, against the plain array program.

  Both programs build the same edge list (the given edges and one self loop per node), the same degrees and the same
  edge weights rsqrt(deg[src]) * rsqrt(deg[dst]); each layer is h = x W, the rows of h at the edges' sources times the
  edges' weights, summed into the edges' destinations, plus a bias (and, after the first layer, the maximum with zero).
  The kernel program pads the edge list from 850000 to 851968 edges, a multiple of its edge block, with source 0,
  destination 0 and weight 0. Over the extended reals a padded edge's message is a row times zero, which is zero
  whatever the row holds, and a zero adds nothing to the sum it lands in: so each padded scatter-add IS the
  reference's, and with it each layer. The dense product computed block of rows by block of rows is the whole
  product's rows; a change of float format is the identity. No finiteness of an input is used.

  Frames: the two kernel programs' are the generated frame certificates; the reference's is its generated run with the
  result dropped. The kernel program's value is read off its run boundary by boundary (Proof/KerChain.lean) over each
  region's closed form (Proof/RegMatmul.lean, RegScale.lean, RegBias.lean); the two value functions are identified
  in Proof/Bridge64.lean, Bridge16.lean and Bridge.lean over the row gather and scatter-add lemmas of Proof/LibRows.lean
  and LibPad.lean.
-/
import proofs.«179984_j48653389529562_1_alg».proof.Defs
import proofs.«179984_j48653389529562_1_alg».proof.Proof.Gen.Kernel
import proofs.«179984_j48653389529562_1_alg».proof.Proof.Gen.Kernel.Skeleton
import proofs.«179984_j48653389529562_1_alg».proof.Proof.Gen.Kernel.Launch
import proofs.«179984_j48653389529562_1_alg».proof.Proof.Gen.Kernel.Points
import proofs.«179984_j48653389529562_1_alg».proof.Proof.Gen.Kernel.Frame
import proofs.«179984_j48653389529562_1_alg».proof.Proof.Gen.KernelIdeal
import proofs.«179984_j48653389529562_1_alg».proof.Proof.Gen.KernelIdeal.Skeleton
import proofs.«179984_j48653389529562_1_alg».proof.Proof.Gen.KernelIdeal.Launch
import proofs.«179984_j48653389529562_1_alg».proof.Proof.Gen.KernelIdeal.Points
import proofs.«179984_j48653389529562_1_alg».proof.Proof.Gen.KernelIdeal.Frame
import proofs.«179984_j48653389529562_1_alg».proof.Proof.Gen.ReferenceIdeal
import proofs.«179984_j48653389529562_1_alg».proof.Proof.Gen.Pre_finite_inputs
import proofs.«179984_j48653389529562_1_alg».proof.Proof.KerRun
import proofs.«179984_j48653389529562_1_alg».proof.Proof.KerChain
import proofs.«179984_j48653389529562_1_alg».proof.Proof.RefSide
import proofs.«179984_j48653389529562_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

/-- From memories that agree on the six arguments, the kernel program ends with its result at its value function of
    them (the run read back through its boundaries) and the reference with its result at its last stage of them:
    one function. -/
theorem algebraic : Cert.algebraic_KernelIdeal_ReferenceIdeal := by
  intro m ρ m' ρ' _ hagree
  refine ⟨fun c => Cert.KernelIdeal.Val.kerVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W11_v59 m ρ c), (h c).2⟩)
      (Cert.KernelIdeal.RunNamed.run_named m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]
    exact (Cert.Bridge.kerVal_eq_ref _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
